-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S2x1047552 : Shape := ⟨2, ![2, 1047552]⟩
abbrev S1024x64 : Shape := ⟨2, ![1024, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1024 : S_.BroadcastsInDim S1024 (![] : Fin 0 → Fin S1024.rank)
  reducesTo_S1024_S_d0 : S1024.ReducesTo [0] S_
  bcast_S_S2x1047552 : S_.BroadcastsInDim S2x1047552 (![] : Fin 0 → Fin S2x1047552.rank)
  reducesTo_S2x1047552_S_d0_1 : S2x1047552.ReducesTo [0, 1] S_

variable [Facts]

def fn_part2 {F : FTy → Type} [FloatOps F] (main_arg1 : IVec S2x1047552 32) (main_v31 : IVec S_ 1) (main_v32 : IVec S2x1047552 32) : IVec S_ 1 :=
  let main_v33 : IVec S2x1047552 1 := cmpi .slt main_arg1 main_v32
  let main_c_13 : IVec S_ 1 := constantI S_ 1 1#1
  let main_v34 : IVec S_ 1 := (fun x v => Host.reduce IntOp.andi x v reducesTo_S2x1047552_S_d0_1 h_S_) main_v33 main_c_13
  let main_v35 : IVec S_ 1 := andi main_v31 main_v34
  main_v35

def fn_part1 {F : FTy → Type} [FloatOps F] (main_arg0 : IVec S1024 32) (main_arg1 : IVec S2x1047552 32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S1024 32 := broadcastInDim S1024 ![] bcast_S_S1024 main_c_8
  let main_v25 : IVec S1024 1 := cmpi .sge main_arg0 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v23 main_v26
  let main_c_10 : IVec S_ 32 := constantI S_ 32 0#32
  let main_v28 : IVec S2x1047552 32 := broadcastInDim S2x1047552 ![] bcast_S_S2x1047552 main_c_10
  let main_v29 : IVec S2x1047552 1 := cmpi .sge main_arg1 main_v28
  let main_c_11 : IVec S_ 1 := constantI S_ 1 1#1
  let main_v30 : IVec S_ 1 := (fun x v => Host.reduce IntOp.andi x v reducesTo_S2x1047552_S_d0_1 h_S_) main_v29 main_c_11
  let main_v31 : IVec S_ 1 := andi main_v27 main_v30
  let main_c_12 : IVec S_ 32 := constantI S_ 32 1024#32
  let main_v32 : IVec S2x1047552 32 := broadcastInDim S2x1047552 ![] bcast_S_S2x1047552 main_c_12
  fn_part2 (F := F) main_arg1 main_v31 main_v32

def fn {F : FTy → Type} [FloatOps F] (main_arg0 : IVec S1024 32) (main_arg1 : IVec S2x1047552 32) (main_arg2 : FVec F S1024x64 .f32) (main_arg3 : FVec F S64x128 .f32) (main_arg4 : FVec F S128 .f32) (main_arg5 : FVec F S128x64 .f32) (main_arg6 : FVec F S64 .f32) : IVec S_ 1 :=
  let main_v0 : FVec F S1024x64 .f32 := Host.absf main_arg2
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg0 main_arg1 main_arg6 main_v13 main_v16
-- ==== Kernel.lean ====
abbrev S1024 : Shape := ⟨1, ![1024]⟩
abbrev S2x1047552 : Shape := ⟨2, ![2, 1047552]⟩
abbrev S1024x64 : Shape := ⟨2, ![1024, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1047552 : Shape := ⟨2, ![1, 1047552]⟩
abbrev S1047552 : Shape := ⟨1, ![1047552]⟩
abbrev S1048576 : Shape := ⟨1, ![1048576]⟩
abbrev S_ : Shape := ⟨0, ![]⟩
abbrev S1024x1024 : Shape := ⟨2, ![1024, 1024]⟩
abbrev S1048576x1 : Shape := ⟨2, ![1048576, 1]⟩
abbrev S1048576x2 : Shape := ⟨2, ![1048576, 2]⟩
abbrev S1024x1 : Shape := ⟨2, ![1024, 1]⟩
abbrev S1x128 : Shape := ⟨2, ![1, 128]⟩
abbrev S1x64 : Shape := ⟨2, ![1, 64]⟩
abbrev S1024x128 : Shape := ⟨2, ![1024, 128]⟩

abbrev nBuf : Space → Nat
  | .hbm => 54
  | .vmem => 9
  | .smem => 0
  | _ => 0

abbrev bufTy : (tb : Table) → Fin (tcTables nBuf tb) → BufTy
  | .hbm, ⟨0, _⟩ => ⟨S1024, .i32⟩
  | .hbm, ⟨1, _⟩ => ⟨S2x1047552, .i32⟩
  | .hbm, ⟨2, _⟩ => ⟨S1024x64, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1047552, .i32⟩
  | .hbm, ⟨8, _⟩ => ⟨S1047552, .i32⟩
  | .hbm, ⟨9, _⟩ => ⟨S1x1047552, .i32⟩
  | .hbm, ⟨10, _⟩ => ⟨S1047552, .i32⟩
  | .hbm, ⟨11, _⟩ => ⟨S1024, .i32⟩
  | .hbm, ⟨12, _⟩ => ⟨S1048576, .i32⟩
  | .hbm, ⟨13, _⟩ => ⟨S1048576, .i32⟩
  | .hbm, ⟨14, _⟩ => ⟨S_, .f32⟩
  | .hbm, ⟨15, _⟩ => ⟨S1048576, .f32⟩
  | .hbm, ⟨16, _⟩ => ⟨S_, .f32⟩
  | .hbm, ⟨17, _⟩ => ⟨S1024x1024, .f32⟩
  | .hbm, ⟨18, _⟩ => ⟨S_, .i32⟩
  | .hbm, ⟨19, _⟩ => ⟨S1048576, .i32⟩
  | .hbm, ⟨20, _⟩ => ⟨S1048576, .i1⟩
  | .hbm, ⟨21, _⟩ => ⟨S_, .i32⟩
  | .hbm, ⟨22, _⟩ => ⟨S1048576, .i32⟩
  | .hbm, ⟨23, _⟩ => ⟨S1048576, .i32⟩
  | .hbm, ⟨24, _⟩ => ⟨S1048576, .i32⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S1048576x1, .i32⟩
  | .hbm, ⟨34, _⟩ => ⟨S1048576x2, .i32⟩
  | .hbm, ⟨35, _⟩ => ⟨S1024x1024, .f32⟩
  | .hbm, ⟨36, _⟩ => ⟨S_, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .i1⟩
  | .hbm, ⟨41, _⟩ => ⟨S1024, .f32⟩
  | .hbm, ⟨42, _⟩ => ⟨S_, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024x1024, .bf16⟩
  | .hbm, ⟨47, _⟩ => ⟨S1024x1, .i32⟩
  | .hbm, ⟨48, _⟩ => ⟨S64x128, .bf16⟩
  | .hbm, ⟨49, _⟩ => ⟨S128x64, .bf16⟩
  | .hbm, ⟨50, _⟩ => ⟨S1x128, .f32⟩
  | .hbm, ⟨51, _⟩ => ⟨S1x64, .f32⟩
  | .hbm, ⟨52, _⟩ => ⟨S1024x1, .f32⟩
  | .hbm, ⟨53, _⟩ => ⟨S1024x64, .f32⟩
  | .local _ .vmem, ⟨0, _⟩ => ⟨S1024x1, .i32⟩
  | .local _ .vmem, ⟨1, _⟩ => ⟨S1024x64, .f32⟩
  | .local _ .vmem, ⟨2, _⟩ => ⟨S64x128, .bf16⟩
  | .local _ .vmem, ⟨3, _⟩ => ⟨S1x128, .f32⟩
  | .local _ .vmem, ⟨4, _⟩ => ⟨S128x64, .bf16⟩
  | .local _ .vmem, ⟨5, _⟩ => ⟨S1x64, .f32⟩
  | .local _ .vmem, ⟨6, _⟩ => ⟨S1024x1024, .bf16⟩
  | .local _ .vmem, ⟨7, _⟩ => ⟨S1024x1, .f32⟩
  | .local _ .vmem, ⟨8, _⟩ => ⟨S1024x64, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst : Ref sig .tc := ⟨.hbm, 14, rfl⟩
abbrev main_call0_v7 : Ref sig .tc := ⟨.hbm, 15, rfl⟩
abbrev main_call0_cst_0 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_c_1 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_c_2 : Ref sig .tc := ⟨.hbm, 25, rfl⟩
abbrev main_call0_v14 : Ref sig .tc := ⟨.hbm, 26, rfl⟩
abbrev main_call0_v15 : Ref sig .tc := ⟨.hbm, 27, rfl⟩
abbrev main_call0_c_3 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_cst_4 : Ref sig .tc := ⟨.hbm, 36, rfl⟩
abbrev main_call0_v23 : Ref sig .tc := ⟨.hbm, 37, rfl⟩
abbrev main_call0_cst_5 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_cst_6 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v0_1 : Ref sig .tc := ⟨.hbm, 45, rfl⟩
abbrev main_v0_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_v1 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  slices_S2x1047552_S1x1047552_0_0 : S2x1047552.Slices ![0, 0] S1x1047552
  shapeCasts_S1x1047552_S1047552 : S1x1047552.ShapeCasts S1047552
  slices_S2x1047552_S1x1047552_1_0 : S2x1047552.Slices ![1, 0] S1x1047552
  concatenates_S1047552_S1024_S1048576_d0 : Shape.Concatenates [S1047552, S1024] S1048576 0
  bcast_S_S1048576 : S_.BroadcastsInDim S1048576 (![] : Fin 0 → Fin S1048576.rank)
  bcast_S_S1024x1024 : S_.BroadcastsInDim S1024x1024 (![] : Fin 0 → Fin S1024x1024.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  reducesTo_S1024x1024_S1024_d1 : S1024x1024.ReducesTo [1] S1024
  h_S_ : 0 < S_.numel
  bcast_S_S1024 : S_.BroadcastsInDim S1024 (![] : Fin 0 → Fin S1024.rank)
  bitsLt_bf16_f32 : FTy.bits .bf16 < FTy.bits .f32
  shapeCasts_S1024_S1024x1 : S1024.ShapeCasts S1024x1
  shapeCasts_S128_S1x128 : S128.ShapeCasts S1x128
  shapeCasts_S64_S1x64 : S64.ShapeCasts S1x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  natLt_1_32 : 1 < 32
  inb_S1024x64_S1024x64_0_0 : ∀ a, (![0, 0] : Fin 2 → Nat) a + S1024x64.size a ≤ S1024x64.size a
  h_S1024x64 : 0 < S1024x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  scatter_S1024x1024_S1048576x2_S1048576_n_01_01_1_wf : ScatterDims.WF S1024x1024 S1048576x2 S1048576 [] [0, 1] [0, 1] 1
  dot_S1024x1024_S1024x64_S1024x64_1_0_0_1_n_n_wf : DotDims.WF S1024x1024 S1024x64 S1024x64 [1] [0] [0] [1] [] []
  dot_S1024x64_S64x128_S1024x128_1_0_0_1_n_n_wf : DotDims.WF S1024x64 S64x128 S1024x128 [1] [0] [0] [1] [] []
  dot_S1024x1024_S1024x128_S1024x128_1_0_0_1_n_n_wf : DotDims.WF S1024x1024 S1024x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S1024x1.size a
  hwx0_0 : ∀ i : grid0.Coords, EltTy.bits .i32 = 32 ∨ (Rect.block (s := S1024x1) S1024x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .bf16 = 32 ∨ (Rect.block (s := S128x64) S128x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S1024x1.size a
  hwx0_7 : ∀ i : grid0.Coords, EltTy.bits .f32 = 32 ∨ (Rect.block (s := S1024x1) S1024x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x64.size a ≤ S1024x64.size a
  hwx0_8 : ∀ i : grid0.Coords, EltTy.bits .f32 = 32 ∨ (Rect.block (s := S1024x64) S1024x64.size (cc0_transform_8 i) (hinb0_8 i)).WholeWords (EltTy.packing .f32)

variable [Facts₀]

def scatter_S1024x1024_S1048576x2_S1048576_n_01_01_1 : ScatterDims S1024x1024 S1048576x2 S1048576 where
  updateWindowDims := []
  insertedWindowDims := [0, 1]
  scatterDimsToOperandDims := [0, 1]
  indexVectorDim := 1
  wf := scatter_S1024x1024_S1048576x2_S1048576_n_01_01_1_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_call1_v0) S1024x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call1_v1) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call1_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call1_v2) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call1_v4) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call1_v5) S1024x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1024x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024 : Shape := ⟨1, ![1024]⟩
abbrev S2x1047552 : Shape := ⟨2, ![2, 1047552]⟩
abbrev S1024x64 : Shape := ⟨2, ![1024, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1047552 : Shape := ⟨2, ![1, 1047552]⟩
abbrev S1047552 : Shape := ⟨1, ![1047552]⟩
abbrev S1048576 : Shape := ⟨1, ![1048576]⟩
abbrev S_ : Shape := ⟨0, ![]⟩
abbrev S1048576x1 : Shape := ⟨2, ![1048576, 1]⟩
abbrev S1024x1 : Shape := ⟨2, ![1024, 1]⟩
abbrev S1024x128 : Shape := ⟨2, ![1024, 128]⟩
abbrev S1048576x128 : Shape := ⟨2, ![1048576, 128]⟩
abbrev S1x128 : Shape := ⟨2, ![1, 128]⟩
abbrev S1048576x64 : Shape := ⟨2, ![1048576, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S1024, .i32⟩
  | .hbm, ⟨1, _⟩ => ⟨S2x1047552, .i32⟩
  | .hbm, ⟨2, _⟩ => ⟨S1024x64, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1047552, .i32⟩
  | .hbm, ⟨8, _⟩ => ⟨S1047552, .i32⟩
  | .hbm, ⟨9, _⟩ => ⟨S1x1047552, .i32⟩
  | .hbm, ⟨10, _⟩ => ⟨S1047552, .i32⟩
  | .hbm, ⟨11, _⟩ => ⟨S1024, .i32⟩
  | .hbm, ⟨12, _⟩ => ⟨S1048576, .i32⟩
  | .hbm, ⟨13, _⟩ => ⟨S1048576, .i32⟩
  | .hbm, ⟨14, _⟩ => ⟨S_, .f32⟩
  | .hbm, ⟨15, _⟩ => ⟨S1048576, .f32⟩
  | .hbm, ⟨16, _⟩ => ⟨S_, .f32⟩
  | .hbm, ⟨17, _⟩ => ⟨S1024, .f32⟩
  | .hbm, ⟨18, _⟩ => ⟨S1048576x1, .i32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .i1⟩
  | .hbm, ⟨23, _⟩ => ⟨S1024, .f32⟩
  | .hbm, ⟨24, _⟩ => ⟨S_, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S_, .i32⟩
  | .hbm, ⟨29, _⟩ => ⟨S1048576, .i32⟩
  | .hbm, ⟨30, _⟩ => ⟨S1048576, .i1⟩
  | .hbm, ⟨31, _⟩ => ⟨S_, .i32⟩
  | .hbm, ⟨32, _⟩ => ⟨S1048576, .i32⟩
  | .hbm, ⟨33, _⟩ => ⟨S1048576, .i32⟩
  | .hbm, ⟨34, _⟩ => ⟨S1048576, .i32⟩
  | .hbm, ⟨35, _⟩ => ⟨S1048576x1, .i32⟩
  | .hbm, ⟨36, _⟩ => ⟨S1048576, .f32⟩
  | .hbm, ⟨37, _⟩ => ⟨S_, .i32⟩
  | .hbm, ⟨38, _⟩ => ⟨S1048576, .i32⟩
  | .hbm, ⟨39, _⟩ => ⟨S1048576, .i1⟩
  | .hbm, ⟨40, _⟩ => ⟨S_, .i32⟩
  | .hbm, ⟨41, _⟩ => ⟨S1048576, .i32⟩
  | .hbm, ⟨42, _⟩ => ⟨S1048576, .i32⟩
  | .hbm, ⟨43, _⟩ => ⟨S1048576, .i32⟩
  | .hbm, ⟨44, _⟩ => ⟨S1048576x1, .i32⟩
  | .hbm, ⟨45, _⟩ => ⟨S1048576, .f32⟩
  | .hbm, ⟨46, _⟩ => ⟨S1048576, .f32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1024x64, .f32⟩
  | .hbm, ⟨56, _⟩ => ⟨S1024x128, .f32⟩
  | .hbm, ⟨57, _⟩ => ⟨S_, .i32⟩
  | .hbm, ⟨58, _⟩ => ⟨S1048576, .i32⟩
  | .hbm, ⟨59, _⟩ => ⟨S1048576, .i1⟩
  | .hbm, ⟨60, _⟩ => ⟨S_, .i32⟩
  | .hbm, ⟨61, _⟩ => ⟨S1048576, .i32⟩
  | .hbm, ⟨62, _⟩ => ⟨S1048576, .i32⟩
  | .hbm, ⟨63, _⟩ => ⟨S1048576, .i32⟩
  | .hbm, ⟨64, _⟩ => ⟨S1048576x1, .i32⟩
  | .hbm, ⟨65, _⟩ => ⟨S1048576x128, .f32⟩
  | .hbm, ⟨66, _⟩ => ⟨S1048576x1, .f32⟩
  | .hbm, ⟨67, _⟩ => ⟨S1048576x128, .f32⟩
  | .hbm, ⟨68, _⟩ => ⟨S1048576x128, .f32⟩
  | .hbm, ⟨69, _⟩ => ⟨S_, .f32⟩
  | .hbm, ⟨70, _⟩ => ⟨S1024x128, .f32⟩
  | .hbm, ⟨71, _⟩ => ⟨S1048576x1, .i32⟩
  | .hbm, ⟨72, _⟩ => ⟨S1024x128, .f32⟩
  | .hbm, ⟨73, _⟩ => ⟨S1x128, .f32⟩
  | .hbm, ⟨74, _⟩ => ⟨S1024x128, .f32⟩
  | .hbm, ⟨75, _⟩ => ⟨S1024x128, .f32⟩
  | .hbm, ⟨76, _⟩ => ⟨S_, .f32⟩
  | .hbm, ⟨77, _⟩ => ⟨S1024x128, .f32⟩
  | .hbm, ⟨78, _⟩ => ⟨S1024x128, .f32⟩
  | .hbm, ⟨79, _⟩ => ⟨S1024x64, .f32⟩
  | .hbm, ⟨80, _⟩ => ⟨S_, .i32⟩
  | .hbm, ⟨81, _⟩ => ⟨S1048576, .i32⟩
  | .hbm, ⟨82, _⟩ => ⟨S1048576, .i1⟩
  | .hbm, ⟨83, _⟩ => ⟨S_, .i32⟩
  | .hbm, ⟨84, _⟩ => ⟨S1048576, .i32⟩
  | .hbm, ⟨85, _⟩ => ⟨S1048576, .i32⟩
  | .hbm, ⟨86, _⟩ => ⟨S1048576, .i32⟩
  | .hbm, ⟨87, _⟩ => ⟨S1048576x1, .i32⟩
  | .hbm, ⟨88, _⟩ => ⟨S1048576x64, .f32⟩
  | .hbm, ⟨89, _⟩ => ⟨S1048576x1, .f32⟩
  | .hbm, ⟨90, _⟩ => ⟨S1048576x64, .f32⟩
  | .hbm, ⟨91, _⟩ => ⟨S1048576x64, .f32⟩
  | .hbm, ⟨92, _⟩ => ⟨S_, .f32⟩
  | .hbm, ⟨93, _⟩ => ⟨S1024x64, .f32⟩
  | .hbm, ⟨94, _⟩ => ⟨S1048576x1, .i32⟩
  | .hbm, ⟨95, _⟩ => ⟨S1024x64, .f32⟩
  | .hbm, ⟨96, _⟩ => ⟨S1x64, .f32⟩
  | .hbm, ⟨97, _⟩ => ⟨S1024x64, .f32⟩
  | .hbm, ⟨98, _⟩ => ⟨S1024x64, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]

class Facts₀ : Prop where
  slices_S2x1047552_S1x1047552_0_0 : S2x1047552.Slices ![0, 0] S1x1047552
  shapeCasts_S1x1047552_S1047552 : S1x1047552.ShapeCasts S1047552
  slices_S2x1047552_S1x1047552_1_0 : S2x1047552.Slices ![1, 0] S1x1047552
  concatenates_S1047552_S1024_S1048576_d0 : Shape.Concatenates [S1047552, S1024] S1048576 0
  bcast_S_S1048576 : S_.BroadcastsInDim S1048576 (![] : Fin 0 → Fin S1048576.rank)
  bcast_S_S1024 : S_.BroadcastsInDim S1024 (![] : Fin 0 → Fin S1024.rank)
  bcast_S1048576_S1048576x1_0 : S1048576.BroadcastsInDim S1048576x1 (![0] : Fin 1 → Fin S1048576x1.rank)
  bcast_S1024_S1024x1_0 : S1024.BroadcastsInDim S1024x1 (![0] : Fin 1 → Fin S1024x1.rank)
  bcast_S1048576x1_S1048576x128_0_1 : S1048576x1.BroadcastsInDim S1048576x128 (![0, 1] : Fin 2 → Fin S1048576x128.rank)
  bcast_S_S1024x128 : S_.BroadcastsInDim S1024x128 (![] : Fin 0 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S1048576x1_S1048576x64_0_1 : S1048576x1.BroadcastsInDim S1048576x64 (![0, 1] : Fin 2 → Fin S1048576x64.rank)
  bcast_S_S1024x64 : S_.BroadcastsInDim S1024x64 (![] : Fin 0 → Fin S1024x64.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  scatter_S1024_S1048576x1_S1048576_n_0_0_1_wf : ScatterDims.WF S1024 S1048576x1 S1048576 [] [0] [0] 1
  gather_S1024_S1048576x1_S1048576_n_0_n_n_0_1_1_wf : GatherDims.WF S1024 S1048576x1 S1048576 [] [0] [] [0] [] 1 ![1]
  gather_S1024x64_S1024x1_S1024x64_1_0_n_n_0_1_164_wf : GatherDims.WF S1024x64 S1024x1 S1024x64 [1] [0] [] [0] [] 1 ![1, 64]
  dot_S1024x64_S64x128_S1024x128_1_0_0_1_n_n_wf : DotDims.WF S1024x64 S64x128 S1024x128 [1] [0] [0] [1] [] []
  gather_S1024x128_S1048576x1_S1048576x128_1_0_n_n_0_1_1128_wf : GatherDims.WF S1024x128 S1048576x1 S1048576x128 [1] [0] [] [0] [] 1 ![1, 128]
  scatter_S1024x128_S1048576x1_S1048576x128_1_0_0_1_wf : ScatterDims.WF S1024x128 S1048576x1 S1048576x128 [1] [0] [0] 1
  dot_S1024x128_S128x64_S1024x64_1_0_0_1_n_n_wf : DotDims.WF S1024x128 S128x64 S1024x64 [1] [0] [0] [1] [] []
  gather_S1024x64_S1048576x1_S1048576x64_1_0_n_n_0_1_164_wf : GatherDims.WF S1024x64 S1048576x1 S1048576x64 [1] [0] [] [0] [] 1 ![1, 64]
  scatter_S1024x64_S1048576x1_S1048576x64_1_0_0_1_wf : ScatterDims.WF S1024x64 S1048576x1 S1048576x64 [1] [0] [0] 1

variable [Facts₀]

def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def gather_S1024_S1048576x1_S1048576_n_0_n_n_0_1_1 : GatherDims S1024 S1048576x1 S1048576 where
  offsetDims := []
  collapsedSliceDims := [0]
  operandBatchingDims := []
  startIndicesBatchingDims := []
  startIndexMap := [0]
  indexVectorDim := 1
  sliceSizes := ![1]
  wf := gather_S1024_S1048576x1_S1048576_n_0_n_n_0_1_1_wf
def gather_S1024x64_S1024x1_S1024x64_1_0_n_n_0_1_164 : GatherDims S1024x64 S1024x1 S1024x64 where
  offsetDims := [1]
  collapsedSliceDims := [0]
  operandBatchingDims := []
  startIndicesBatchingDims := []
  startIndexMap := [0]
  indexVectorDim := 1
  sliceSizes := ![1, 64]
  wf := gather_S1024x64_S1024x1_S1024x64_1_0_n_n_0_1_164_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def gather_S1024x128_S1048576x1_S1048576x128_1_0_n_n_0_1_1128 : GatherDims S1024x128 S1048576x1 S1048576x128 where
  offsetDims := [1]
  collapsedSliceDims := [0]
  operandBatchingDims := []
  startIndicesBatchingDims := []
  startIndexMap := [0]
  indexVectorDim := 1
  sliceSizes := ![1, 128]
  wf := gather_S1024x128_S1048576x1_S1048576x128_1_0_n_n_0_1_1128_wf
def scatter_S1024x128_S1048576x1_S1048576x128_1_0_0_1 : ScatterDims S1024x128 S1048576x1 S1048576x128 where
  updateWindowDims := [1]
  insertedWindowDims := [0]
  scatterDimsToOperandDims := [0]
  indexVectorDim := 1
  wf := scatter_S1024x128_S1048576x1_S1048576x128_1_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def gather_S1024x64_S1048576x1_S1048576x64_1_0_n_n_0_1_164 : GatherDims S1024x64 S1048576x1 S1048576x64 where
  offsetDims := [1]
  collapsedSliceDims := [0]
  operandBatchingDims := []
  startIndicesBatchingDims := []
  startIndexMap := [0]
  indexVectorDim := 1
  sliceSizes := ![1, 64]
  wf := gather_S1024x64_S1048576x1_S1048576x64_1_0_n_n_0_1_164_wf
def scatter_S1024x64_S1048576x1_S1048576x64_1_0_0_1 : ScatterDims S1024x64 S1048576x1 S1048576x64 where
  updateWindowDims := [1]
  insertedWindowDims := [0]
  scatterDimsToOperandDims := [0]
  indexVectorDim := 1
  wf := scatter_S1024x64_S1048576x1_S1048576x64_1_0_0_1_wf

class Facts : Prop extends Facts₀ where

variable [Facts]
-- ==== Proof.PreFacts.lean ====
/-
  The precondition read back: every float argument holds reals only (|x| < +inf element by element), every label is
  non-negative, and every word of the edge array names a node, 0 ≤ w < 1024.
-/
import proofs.«409722_j76278619177162_3_alg».proof.Pre_finite_inputs
import Idealize.ShloMosaic.PureOps.Ideal
import Idealize.ShloMosaic.Lib.ReduceAll
import Idealize.ShloMosaic.Lib.StableHlo.Predicate

noncomputable section

namespace Cert.PreFacts

open Idealize.ShloMosaic Cert.Pre_finite_inputs

/-- The rank-0 shape has one index. -/
local instance subsingleton_scalar_idx : Subsingleton S_.Idx := ⟨fun _ _ => funext fun d => d.elim0⟩

/-- An extended real whose absolute value max x (-x) is below the f32 pattern of +inf (which denotes ⊤) is a real. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  simp only [Ideal.cmp, StableHlo.Predicate.ofBool_eq_one_iff, decide_eq_true_eq] at h
  induction x using EReal.rec with
  | bot => simp at h
  | top => simp at h
  | coe r => exact ⟨r, rfl⟩

/-- A conjunct "all of |x| < +inf" over a float array of any shape, being 1, says every element is a real. -/
theorem reals_of_all {s : Shape} {axes : List (Fin s.rank)} (x : FVec Ideal s .f32)
    (hb : S_.BroadcastsInDim s (![] : Fin 0 → Fin s.rank)) (hr : s.ReducesTo axes S_) (h0 : 0 < S_.numel) (j : S_.Idx)
    (e : Host.reduce IntOp.andi (cmpf .olt (Host.absf x) (broadcastInDim s ![] hb (constant S_ .f32 0x7F800000#32)))
      (constantI S_ 1 1#1) hr h0 j = 1#1) (i : s.Idx) : ∃ r : ℝ, x i = (r : EReal) :=
  real_of_abs_lt_top (x i) (Host.reduce_andi_all _ _ hr h0 j e i)

/-- A conjunct "all of x ≥ 0" (signed) over an integer array, being 1, says every word reads non-negative. -/
theorem nonneg_of_all {s : Shape} {axes : List (Fin s.rank)} (x : IVec s 32)
    (hb : S_.BroadcastsInDim s (![] : Fin 0 → Fin s.rank)) (hr : s.ReducesTo axes S_) (h0 : 0 < S_.numel) (j : S_.Idx)
    (e : Host.reduce IntOp.andi (cmpi .sge x (broadcastInDim s ![] hb (constantI S_ 32 0#32)))
      (constantI S_ 1 1#1) hr h0 j = 1#1) (i : s.Idx) : 0 ≤ (x i).toInt := by
  have hc : IntOp.cmpi .sge (x i) 0#32 = 1#1 := Host.reduce_andi_all _ _ hr h0 j e i
  have hle := IntOp.cmpi_sge.1 hc
  have hz : (0#32 : BitVec 32).toInt = 0 := by decide
  rwa [hz] at hle

/-- A conjunct "all of x < 1024" (signed) over an integer array, being 1, says every word reads below 1024. -/
theorem lt_of_all {s : Shape} {axes : List (Fin s.rank)} (x : IVec s 32)
    (hb : S_.BroadcastsInDim s (![] : Fin 0 → Fin s.rank)) (hr : s.ReducesTo axes S_) (h0 : 0 < S_.numel) (j : S_.Idx)
    (e : Host.reduce IntOp.andi (cmpi .slt x (broadcastInDim s ![] hb (constantI S_ 32 1024#32)))
      (constantI S_ 1 1#1) hr h0 j = 1#1) (i : s.Idx) : (x i).toInt < 1024 := by
  have hc : IntOp.cmpi .slt (x i) 1024#32 = 1#1 := Host.reduce_andi_all _ _ hr h0 j e i
  have hlt := IntOp.cmpi_slt.1 hc
  have hz : (1024#32 : BitVec 32).toInt = 1024 := by decide
  rwa [hz] at hlt

/-- THE PRECONDITION DECODED at the ideal values. -/
theorem decode [Facts] (y : IVec S1024 32) (ei : IVec S2x1047552 32) (emb : FVec Ideal S1024x64 .f32)
    (W1 : FVec Ideal S64x128 .f32) (b1 : FVec Ideal S128 .f32) (W2 : FVec Ideal S128x64 .f32) (b2 : FVec Ideal S64 .f32)
    (h : fn (F := Ideal) y ei emb W1 b1 W2 b2 = fun _ => 1#1) :
    (∀ i, ∃ r : ℝ, emb i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal))
      ∧ (∀ i, 0 ≤ (y i).toInt) ∧ (∀ i, 0 ≤ (ei i).toInt ∧ (ei i).toInt < 1024) := by
  -- the result has rank 0: read the claim at its one index, and split the conjunction of the eight reductions
  have h0 := congrFun h (fun d => d.elim0)
  dsimp only [fn, fn_part1, fn_part2] at h0
  simp only [andi, IntOp.andi_eq_one] at h0
  obtain ⟨⟨⟨⟨⟨⟨⟨hemb, hW1⟩, hb1⟩, hW2⟩, hb2⟩, hy⟩, hei0⟩, hei1⟩ := h0
  exact ⟨reals_of_all emb _ _ _ _ hemb, reals_of_all W1 _ _ _ _ hW1, reals_of_all b1 _ _ _ _ hb1,
    reals_of_all W2 _ _ _ _ hW2, reals_of_all b2 _ _ _ _ hb2, nonneg_of_all y _ _ _ _ hy,
    fun i => ⟨nonneg_of_all ei _ _ _ _ hei0 i, lt_of_all ei _ _ _ _ hei1 i⟩⟩

end Cert.PreFacts

end
-- ==== Proof.Spec.lean ====
/-
  The two-layer graph convolution that both programs compute, written once as functions of the argument arrays.

  An edge list with E entries over N nodes is a pair of maps s, d : edges → nodes (source, destination). Its
  degree of a node n counts the edges into n; its inverse root degree is q n = deg(n)^(-1/2) where the degree is
  positive and 0 elsewhere. One layer sends a feature table M (a row per node) to

      (A M)(n, c) = Σ over the edges e into n of  M(s e, c) · (q(s e) · q(d e)),

  which is how a segment sum over gathered, normalised messages reads ("the reference form", aggR). Collecting the
  edges into n by their source k gives the adjacency count adj(n, k) (how many edges run from k to n), and the same
  value reads as the product of the count matrix with the table scaled by q, scaled again by q(n):

      (A M)(n, c) = (Σ over k of  adj(n, k) · (M(k, c) · q(k))) · q(n),

  ("the kernel form", aggK). The two agree when the table and q are real-valued (no infinity among them): that is
  a rearrangement of a finite sum of reals, and it is what joins the two programs. The network is
  out = A(relu(A(Z · W1) + b1) · W2) + b2 with Z the rows of the embedding table the labels pick.
-/
import Idealize.ShloMosaic.PureOps.Ideal
import Idealize.ShloMosaic.Lib.ValueIdx

noncomputable section

namespace Cert.Gcn

open Idealize.ShloMosaic Idealize.ShloMosaic.ValueIdx

/-! ## Aggregation over an edge list, in its two forms -/

section Abstract

variable {ε ν κ : Type} [Fintype ε] [Fintype ν] [DecidableEq ν]
variable (s d : ε → ν)

/-- How many edges run from node k to node n, as an extended real. -/
def adj (n k : ν) : EReal := ∑ _e ∈ Finset.univ.filter (fun e => d e = n ∧ s e = k), (1 : EReal)

/-- The in-degree of node n: how many edges end at n. -/
def deg (n : ν) : EReal := ∑ _e ∈ Finset.univ.filter (fun e => d e = n), (1 : EReal)

/-- The inverse root of the in-degree where it is positive, 0 elsewhere. -/
def dinv (n : ν) : EReal := if 0 < deg d n then Ideal.rsqrt (deg d n) else 0

/-- One aggregation in the reference's form: the normalised messages summed over the edges into n. -/
def aggR (q : ν → EReal) (M : ν → κ → EReal) (n : ν) (c : κ) : EReal :=
  ∑ e ∈ Finset.univ.filter (fun e => d e = n), M (s e) c * (q (s e) * q (d e))

/-- One aggregation in the kernel's form: the count matrix times the scaled table, scaled again. -/
def aggK (q : ν → EReal) (M : ν → κ → EReal) (n : ν) (c : κ) : EReal :=
  (∑ k, adj s d n k * (M k c * q k)) * q n

end Abstract

/-! ## The edge list and the labels of this program -/

/-- The shape of the edge array: row 0 the sources, row 1 the destinations. -/
abbrev SEi : Shape := ⟨2, ![2, 1047552]⟩

/-- The node a 32-bit word names: read signed and clamped into [0, 1023]. -/
def node (w : BitVec 32) : Fin 1024 := ⟨min w.toInt.toNat 1023, by omega⟩

/-- The source word of edge e once the 1024 self loops are appended behind the 1047552 given edges. -/
def srcW (ei : SEi.Idx → BitVec 32) (e : Fin 1048576) : BitVec 32 :=
  if h : e.val < 1047552 then ei (ix2 (0 : Fin 2) (⟨e.val, h⟩ : Fin 1047552)) else BitVec.ofNat 32 (e.val - 1047552)

/-- The destination word of edge e, likewise. -/
def dstW (ei : SEi.Idx → BitVec 32) (e : Fin 1048576) : BitVec 32 :=
  if h : e.val < 1047552 then ei (ix2 (1 : Fin 2) (⟨e.val, h⟩ : Fin 1047552)) else BitVec.ofNat 32 (e.val - 1047552)

/-- Source and destination node of edge e. -/
def src (ei : SEi.Idx → BitVec 32) (e : Fin 1048576) : Fin 1024 := node (srcW ei e)
def dst (ei : SEi.Idx → BitVec 32) (e : Fin 1048576) : Fin 1024 := node (dstW ei e)

/-! ## The network, in the two forms -/

section Net

variable (y : (⟨1, ![1024]⟩ : Shape).Idx → BitVec 32) (ei : SEi.Idx → BitVec 32)
  (emb : (⟨2, ![1024, 64]⟩ : Shape).Idx → EReal) (W1 : (⟨2, ![64, 128]⟩ : Shape).Idx → EReal)
  (b1 : (⟨1, ![128]⟩ : Shape).Idx → EReal) (W2 : (⟨2, ![128, 64]⟩ : Shape).Idx → EReal)
  (b2 : (⟨1, ![64]⟩ : Shape).Idx → EReal)

/-- The inverse root degrees of this edge list. -/
def q (n : Fin 1024) : EReal := dinv (dst ei) n

/-- The first layer's table: row k is the embedding row that label k picks, times W1. -/
def M1 (k : Fin 1024) (j : Fin 128) : EReal := ∑ i : Fin 64, emb (ix2 (node (y (ix1 k))) i) * W1 (ix2 i j)

/-- The hidden activations, the reference's way. -/
def hidR (k : Fin 1024) (j : Fin 128) : EReal :=
  max ((0 + aggR (src ei) (dst ei) (q ei) (M1 y emb W1) k j) + b1 (ix1 j)) 0

/-- The second layer's table, the reference's way. -/
def M2R (k : Fin 1024) (c : Fin 64) : EReal := ∑ j : Fin 128, hidR y ei emb W1 b1 k j * W2 (ix2 j c)

/-- The result, the reference's way. -/
def outR (n : Fin 1024) (c : Fin 64) : EReal :=
  (0 + aggR (src ei) (dst ei) (q ei) (M2R y ei emb W1 b1 W2) n c) + b2 (ix1 c)

/-- The hidden activations, the kernel's way. -/
def hidK (k : Fin 1024) (j : Fin 128) : EReal :=
  max (aggK (src ei) (dst ei) (q ei) (M1 y emb W1) k j + b1 (ix1 j)) 0

/-- The second layer's table, the kernel's way. -/
def M2K (k : Fin 1024) (c : Fin 64) : EReal := ∑ j : Fin 128, hidK y ei emb W1 b1 k j * W2 (ix2 j c)

/-- The result, the kernel's way. -/
def outK (n : Fin 1024) (c : Fin 64) : EReal :=
  aggK (src ei) (dst ei) (q ei) (M2K y ei emb W1 b1 W2) n c + b2 (ix1 c)

end Net

end Cert.Gcn

end
-- ==== Proof.Algebra.lean ====
/-
  The algebra that joins the two forms of one aggregation (Spec.lean): over real-valued tables the kernel's form
  (count matrix times scaled table, scaled again) is the reference's (normalised messages summed over the edges
  into a node), by collecting the edges into a node by their source; the row sums of the count matrix are the
  in-degrees; the inverse root degree is a real; sums, products, sums of products and maxima of reals are reals.
-/
import proofs.«409722_j76278619177162_3_alg».proof.Proof.Spec
import Idealize.ShloMosaic.PureOps.Ideal.Laws

noncomputable section

namespace Cert.Gcn

open Idealize.ShloMosaic

/-- The f32 word of 1.0 is the extended real 1. -/
theorem ofBits_one_f32 : Ideal.ofBits .f32 0x3F800000#32 = 1 := by
  simp [Ideal.ofBits, Ideal.ieee, -EReal.coe_mul]
  norm_num

/-! ## Reals among the extended reals -/

theorem real_zero : ∃ r : ℝ, (0 : EReal) = (r : EReal) := ⟨0, rfl⟩

theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

theorem real_max {a b : EReal} (ha : ∃ r : ℝ, a = (r : EReal)) (hb : ∃ r : ℝ, b = (r : EReal)) :
    ∃ r : ℝ, max a b = (r : EReal) := by
  obtain ⟨x, rfl⟩ := ha
  obtain ⟨y, rfl⟩ := hb
  exact ⟨max x y, (EReal.coe_strictMono.monotone.map_max).symm⟩

/-- The coercion of a finite sum of reals is the sum of the coercions. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum of ones over a finite set is its cardinality, as a real. -/
theorem sum_one_eq_card {ι : Type} (S : Finset ι) : ∑ _e ∈ S, (1 : EReal) = ((S.card : ℝ) : EReal) := by
  have h := coe_sum S (fun _ => (1 : ℝ))
  simp only [EReal.coe_one] at h
  rw [← h]
  simp

theorem real_sum {ι : Type} (S : Finset ι) (f : ι → EReal) (hf : ∀ i, ∃ r : ℝ, f i = (r : EReal)) :
    ∃ r : ℝ, ∑ i ∈ S, f i = (r : EReal) := by
  choose g hg using hf
  refine ⟨∑ i ∈ S, g i, ?_⟩
  rw [coe_sum]
  exact Finset.sum_congr rfl (fun i _ => hg i)

/-! ## The two forms of an aggregation -/

section Abstract

variable {ε ν κ : Type} [Fintype ε] [Fintype ν] [DecidableEq ν]
variable (s d : ε → ν)

/-- Collecting the edges into n by their source: a sum over the edges into n is the sum over the sources k of
the sums over the edges from k to n. -/
theorem sum_fibre {R : Type} [AddCommMonoid R] (n : ν) (f : ε → R) :
    ∑ k, ∑ e ∈ Finset.univ.filter (fun e => d e = n ∧ s e = k), f e
      = ∑ e ∈ Finset.univ.filter (fun e => d e = n), f e := by
  rw [← Finset.sum_fiberwise_of_maps_to (s := Finset.univ.filter (fun e => d e = n)) (t := Finset.univ)
    (g := s) (fun _ _ => Finset.mem_univ _) f]
  refine Finset.sum_congr rfl (fun k _ => ?_)
  rw [Finset.filter_filter]

/-- A row of the count matrix sums to the in-degree. -/
theorem adj_row_sum (n : ν) : ∑ k, adj s d n k = deg d n := by
  unfold adj deg
  exact sum_fibre s d n (fun _ => (1 : EReal))

/-- The inverse root degree is a real (a count is a non-negative real; its inverse root is taken only where it is positive). -/
theorem dinv_real (n : ν) : ∃ r : ℝ, dinv d n = (r : EReal) := by
  have hdeg : deg d n = (((Finset.univ.filter (fun e => d e = n)).card : ℝ) : EReal) := sum_one_eq_card _
  unfold dinv
  rw [hdeg]
  split_ifs with h
  · have h' : (0 : ℝ) < ((Finset.univ.filter (fun e => d e = n)).card : ℝ) := by exact_mod_cast h
    rw [Ideal.rsqrt_coe, if_neg (not_lt.mpr h'.le), if_neg h'.ne']
    exact ⟨_, rfl⟩
  · exact ⟨0, rfl⟩

/-- The reference's form of an aggregation of real-valued tables is a real. -/
theorem aggR_real (q : ν → EReal) (M : ν → κ → EReal) (hq : ∀ k, ∃ r : ℝ, q k = (r : EReal))
    (hM : ∀ k c, ∃ r : ℝ, M k c = (r : EReal)) (n : ν) (c : κ) : ∃ r : ℝ, aggR s d q M n c = (r : EReal) := by
  unfold aggR
  exact real_sum _ _ (fun e => real_mul (hM _ _) (real_mul (hq _) (hq _)))

/-- THE JOIN: over real-valued tables the kernel's form of an aggregation is the reference's. -/
theorem aggK_eq_aggR (q : ν → EReal) (M : ν → κ → EReal) (hq : ∀ k, ∃ r : ℝ, q k = (r : EReal))
    (hM : ∀ k c, ∃ r : ℝ, M k c = (r : EReal)) (n : ν) (c : κ) : aggK s d q M n c = aggR s d q M n c := by
  choose qr hqr using hq
  choose Mr hMr using hM
  obtain rfl : q = fun k => (qr k : EReal) := funext hqr
  obtain rfl : M = fun k c => (Mr k c : EReal) := funext (fun k => funext (hMr k))
  have hadj : ∀ k, adj s d n k
      = (((Finset.univ.filter (fun e => d e = n ∧ s e = k)).card : ℝ) : EReal) := fun k => sum_one_eq_card _
  unfold aggK aggR
  simp only [hadj, ← EReal.coe_mul, ← coe_sum]
  congr 1
  rw [← sum_fibre s d n (fun e => Mr (s e) c * (qr (s e) * qr (d e))), Finset.sum_mul]
  refine Finset.sum_congr rfl (fun k _ => ?_)
  have hconst : ∑ e ∈ Finset.univ.filter (fun e => d e = n ∧ s e = k), Mr (s e) c * (qr (s e) * qr (d e))
      = ∑ _e ∈ Finset.univ.filter (fun e => d e = n ∧ s e = k), Mr k c * (qr k * qr n) := by
    refine Finset.sum_congr rfl (fun e he => ?_)
    obtain ⟨hd, hs⟩ := (Finset.mem_filter.mp he).2
    rw [hd, hs]
  rw [hconst, Finset.sum_const, nsmul_eq_mul]
  ring

end Abstract

end Cert.Gcn

end
-- ==== Proof.Bridge.lean ====
/-
  The two forms of the network agree on real-valued arguments: the first layer's table is a finite sum of products of
  reals, so its two aggregations agree (Algebra.lean's join) and are real; so are the hidden activations, the second
  layer's table, and its two aggregations.
-/
import proofs.«409722_j76278619177162_3_alg».proof.Proof.Spec
import proofs.«409722_j76278619177162_3_alg».proof.Proof.Algebra

noncomputable section

namespace Cert.Gcn

open Idealize.ShloMosaic Idealize.ShloMosaic.ValueIdx

variable (y : (⟨1, ![1024]⟩ : Shape).Idx → BitVec 32) (ei : SEi.Idx → BitVec 32)
  (emb : (⟨2, ![1024, 64]⟩ : Shape).Idx → EReal) (W1 : (⟨2, ![64, 128]⟩ : Shape).Idx → EReal)
  (b1 : (⟨1, ![128]⟩ : Shape).Idx → EReal) (W2 : (⟨2, ![128, 64]⟩ : Shape).Idx → EReal)
  (b2 : (⟨1, ![64]⟩ : Shape).Idx → EReal)

/-- The inverse root degrees are reals. -/
theorem q_real (k : Fin 1024) : ∃ r : ℝ, q ei k = (r : EReal) := by
  unfold q
  exact dinv_real (dst ei) k

/-- The first layer's table is real-valued: a finite sum of products of reals. -/
theorem M1_real (hemb : ∀ i, ∃ r : ℝ, emb i = (r : EReal)) (hW1 : ∀ i, ∃ r : ℝ, W1 i = (r : EReal))
    (k : Fin 1024) (j : Fin 128) : ∃ r : ℝ, M1 y emb W1 k j = (r : EReal) := by
  unfold M1
  exact real_sum _ _ (fun i => real_mul (hemb _) (hW1 _))

/-- The hidden activations agree in the two forms: the first layer's two aggregations do. -/
theorem hidK_eq_hidR (hemb : ∀ i, ∃ r : ℝ, emb i = (r : EReal)) (hW1 : ∀ i, ∃ r : ℝ, W1 i = (r : EReal))
    (k : Fin 1024) (j : Fin 128) : hidK y ei emb W1 b1 k j = hidR y ei emb W1 b1 k j := by
  unfold hidK hidR
  rw [aggK_eq_aggR (src ei) (dst ei) (q ei) (M1 y emb W1) (q_real ei) (M1_real y emb W1 hemb hW1) k j, zero_add]

/-- So the second layer's table is the same in the two forms. -/
theorem M2K_eq_M2R (hemb : ∀ i, ∃ r : ℝ, emb i = (r : EReal)) (hW1 : ∀ i, ∃ r : ℝ, W1 i = (r : EReal)) :
    M2K y ei emb W1 b1 W2 = M2R y ei emb W1 b1 W2 := by
  funext k c
  unfold M2K M2R
  refine Finset.sum_congr rfl fun j _ => ?_
  rw [hidK_eq_hidR y ei emb W1 b1 hemb hW1 k j]

/-- The hidden activations are reals. -/
theorem hidR_real (hemb : ∀ i, ∃ r : ℝ, emb i = (r : EReal)) (hW1 : ∀ i, ∃ r : ℝ, W1 i = (r : EReal))
    (hb1 : ∀ i, ∃ r : ℝ, b1 i = (r : EReal)) (k : Fin 1024) (j : Fin 128) :
    ∃ r : ℝ, hidR y ei emb W1 b1 k j = (r : EReal) := by
  unfold hidR
  exact real_max (real_add (real_add real_zero
    (aggR_real (src ei) (dst ei) (q ei) (M1 y emb W1) (q_real ei) (M1_real y emb W1 hemb hW1) k j)) (hb1 _)) real_zero

/-- The second layer's table is real-valued. -/
theorem M2R_real (hemb : ∀ i, ∃ r : ℝ, emb i = (r : EReal)) (hW1 : ∀ i, ∃ r : ℝ, W1 i = (r : EReal))
    (hb1 : ∀ i, ∃ r : ℝ, b1 i = (r : EReal)) (hW2 : ∀ i, ∃ r : ℝ, W2 i = (r : EReal))
    (k : Fin 1024) (c : Fin 64) : ∃ r : ℝ, M2R y ei emb W1 b1 W2 k c = (r : EReal) := by
  unfold M2R
  exact real_sum _ _ (fun j => real_mul (hidR_real y ei emb W1 b1 hemb hW1 hb1 k j) (hW2 _))

/-- THE KERNEL'S FORM OF THE NETWORK IS THE REFERENCE'S, on real-valued float arguments. -/
theorem outK_eq_outR (hemb : ∀ i, ∃ r : ℝ, emb i = (r : EReal)) (hW1 : ∀ i, ∃ r : ℝ, W1 i = (r : EReal))
    (hb1 : ∀ i, ∃ r : ℝ, b1 i = (r : EReal)) (hW2 : ∀ i, ∃ r : ℝ, W2 i = (r : EReal))
    (n : Fin 1024) (c : Fin 64) :
    outK y ei emb W1 b1 W2 b2 n c = outR y ei emb W1 b1 W2 b2 n c := by
  unfold outK outR
  rw [M2K_eq_M2R y ei emb W1 b1 W2 hemb hW1,
    aggK_eq_aggR (src ei) (dst ei) (q ei) (M2R y ei emb W1 b1 W2) (q_real ei)
      (M2R_real y ei emb W1 b1 W2 hemb hW1 hb1 hW2) n c, zero_add]

end Cert.Gcn

end
-- ==== Proof.KernelHost.lean ====
/-
  The host operations the kernel's @main runs before its one pallas_call, as functions of the edge array: the two rows
  with the self loops appended; the negative-index wrap; the column pair (destination, source) the scatter reads; the
  count matrix B (a scatter-add of ones at those pairs); its row sums (the in-degrees); their inverse roots where positive.
-/
import proofs.«409722_j76278619177162_3_alg».proof.KernelIdeal
import proofs.«409722_j76278619177162_3_alg».proof.Proof.Gen.KernelIdeal

noncomputable section

namespace Cert.KernelIdeal.KernelHost

open Cert.KernelIdeal Cert.KernelIdeal.Gen Idealize.ShloMosaic

variable {F : FTy → Type} [FloatOps F]

/-- The source words with the self loops appended. -/
def kSrc (ei : IVec S2x1047552 32) : IVec S1048576 32 :=
  concatenate S1048576 0 [⟨S1047552, shapeCast _ (extractStridedSlice S1x1047552 ![0, 0] ei slices_S2x1047552_S1x1047552_0_0) shapeCasts_S1x1047552_S1047552⟩, ⟨S1024, iotaInDim S1024 32 0⟩] concatenates_S1047552_S1024_S1048576_d0

/-- The destination words with the self loops appended. -/
def kDst (ei : IVec S2x1047552 32) : IVec S1048576 32 :=
  concatenate S1048576 0 [⟨S1047552, shapeCast _ (extractStridedSlice S1x1047552 ![1, 0] ei slices_S2x1047552_S1x1047552_1_0) shapeCasts_S1x1047552_S1047552⟩, ⟨S1024, iotaInDim S1024 32 0⟩] concatenates_S1047552_S1024_S1048576_d0

/-- The negative-index wrap: w < 0 ? w + 1024 : w, word by word. -/
def kWrap (v : IVec S1048576 32) : IVec S1048576 32 :=
  select (cmpi .slt v (broadcastInDim S1048576 ![] bcast_S_S1048576 (constantI S_ 32 0#32)))
    (addi v (broadcastInDim S1048576 ![] bcast_S_S1048576 (constantI S_ 32 1024#32))) v

/-- The pairs (destination, source) the scatter reads, one row per edge. -/
def kIdx (ei : IVec S2x1047552 32) : IVec S1048576x2 32 :=
  concatenate S1048576x2 1 [⟨S1048576x1, broadcastInDim S1048576x1 ![0] bcast_S1048576_S1048576x1_0 (kWrap (kDst ei))⟩,
    ⟨S1048576x1, broadcastInDim S1048576x1 ![0] bcast_S1048576_S1048576x1_0 (kWrap (kSrc ei))⟩] concatenates_S1048576x1_S1048576x1_S1048576x2_d1

/-- The count matrix: ones scattered into zeros at the pairs. -/
def kAdj (ei : IVec S2x1047552 32) : FVec F S1024x1024 .f32 :=
  Host.scatterAdd scatter_S1024x1024_S1048576x2_S1048576_n_01_01_1
    (broadcastInDim S1024x1024 ![] bcast_S_S1024x1024 (constant (F := F) S_ .f32 0x00000000#32)) (kIdx ei)
    (broadcastInDim S1048576 ![] bcast_S_S1048576 (constant (F := F) S_ .f32 0x3F800000#32))

/-- The in-degrees: the count matrix's row sums. -/
def kDeg (ei : IVec S2x1047552 32) : FVec F S1024 .f32 :=
  Host.reduceAdd (kAdj (F := F) ei) (constant (F := F) S_ .f32 0x00000000#32) reducesTo_S1024x1024_S1024_d1 h_S_

/-- The inverse root degrees where positive, 0 elsewhere. -/
def kDinv (ei : IVec S2x1047552 32) : FVec F S1024 .f32 :=
  select (cmpf .ogt (kDeg (F := F) ei) (broadcastInDim S1024 ![] bcast_S_S1024 (constant (F := F) S_ .f32 0x00000000#32)))
    (Host.rsqrt (kDeg (F := F) ei)) (broadcastInDim S1024 ![] bcast_S_S1024 (id (constant (F := F) S_ .f32 0x00000000#32)))

end Cert.KernelIdeal.KernelHost

end
-- ==== Proof.Nodes.lean ====
/-
  Words and nodes. Under the precondition every word of the edge array names a node; so does every appended self
  loop (its word is its position, below 1024). For a word w in [0, 1024), "w read signed is n" says the same as
  "the node of w is n"; so a sum filtered by the first reads as a sum filtered by the second.
-/
import proofs.«409722_j76278619177162_3_alg».proof.Proof.Spec
import Idealize.ShloMosaic.Lib.StableHlo.Predicate

noncomputable section

namespace Cert.Gcn

open Idealize.ShloMosaic Idealize.ShloMosaic.ValueIdx

/-- A word in range read signed is n exactly when its node is n. -/
theorem toInt_eq_iff_node (w : BitVec 32) (h0 : 0 ≤ w.toInt) (h1 : w.toInt < 1024) (n : Fin 1024) :
    w.toInt = (n.val : ℤ) ↔ node w = n := by
  constructor
  · intro h
    apply Fin.ext
    show min w.toInt.toNat 1023 = n.val
    omega
  · intro h
    have hv : min w.toInt.toNat 1023 = n.val := congrArg Fin.val h
    omega

/-- The node of a word in range, as the clamped natural number a gather reads. -/
theorem node_val (w : BitVec 32) : (node w).val = min w.toInt.toNat (1024 - 1) := rfl

/-- Every source word is in range. -/
theorem srcW_inrange (ei : SEi.Idx → BitVec 32) (hei : ∀ i, 0 ≤ (ei i).toInt ∧ (ei i).toInt < 1024) (e : Fin 1048576) :
    0 ≤ (srcW ei e).toInt ∧ (srcW ei e).toInt < 1024 := by
  unfold srcW
  split
  · exact hei _
  · rename_i hge
    have he := e.isLt
    rw [StableHlo.Predicate.toInt_ofNat_small _ (by omega)]
    omega

/-- Every destination word is in range. -/
theorem dstW_inrange (ei : SEi.Idx → BitVec 32) (hei : ∀ i, 0 ≤ (ei i).toInt ∧ (ei i).toInt < 1024) (e : Fin 1048576) :
    0 ≤ (dstW ei e).toInt ∧ (dstW ei e).toInt < 1024 := by
  unfold dstW
  split
  · exact hei _
  · rename_i hge
    have he := e.isLt
    rw [StableHlo.Predicate.toInt_ofNat_small _ (by omega)]
    omega

end Cert.Gcn

end
-- ==== Proof.LibGraphOps.lean ====
/-
  Index-dependent host operations read at an index, beside the row gather and the row and vector scatter-adds:

  * a scatter-add of scalar updates [E] into a matrix [N, M] by a PAIR of destination words per update (indices
    [E, 2], both operand axes inserted and index-mapped): element (n, k) gains the updates whose two words, read
    signed and not clamped, are n and k; an update with either word outside its axis is dropped;
  * a gather out of a vector [N] by one start word per result position (indices [E, 1]): position e reads the
    vector at its word read signed and clamped into [0, N - 1];
  * two vectors joined end to end, read at a position: the first below its length, the second past it;
  * two columns [E, 1] joined side by side into [E, 2], read at either column;
  * the negative-index wrap jnp puts before a gather or scatter (w < 0 ? w + 1024 : w) leaves a non-negative word alone.
-/
import Idealize.ShloMosaic.PureOps.Ideal
import Idealize.ShloMosaic.Lib.ValueIdx
import Idealize.ShloMosaic.Lib.Pipeline.Value
import Idealize.ShloMosaic.Lib.StableHlo.Predicate

noncomputable section

namespace Idealize.ShloMosaic.GraphOps

open Idealize.ShloMosaic Idealize.ShloMosaic.ValueIdx

/-- The dimension numbers of a pair scatter: operand [N, M], scatter indices [E, 2], updates [E]. -/
abbrev pairScatter (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- A pair scatter has no window: both operand axes are inserted axes, so the window coordinate is 0 on each. -/
theorem pairScatter_window {N M E : Nat}
    (wf : ScatterDims.WF ⟨2, ![N, M]⟩ ⟨2, ![E, 2]⟩ ⟨1, ![E]⟩ [] [0, 1] [0, 1] 1) (p : Fin E) (a : Fin 2) :
    (pairScatter N M E wf).window (ix1 p) a = 0 := by
  unfold ScatterDims.window
  rw [dif_neg]
  match a with
  | ⟨0, _⟩ => simp [Shape.kept]
  | ⟨1, _⟩ => simp [Shape.kept]

/-- On the first operand axis a pair scatter's landing coordinate (start plus window) of update position p is the
    first word of p read signed. -/
theorem pairScatter_land0 {N M E w : Nat}
    (wf : ScatterDims.WF ⟨2, ![N, M]⟩ ⟨2, ![E, 2]⟩ ⟨1, ![E]⟩ [] [0, 1] [0, 1] 1)
    (idx : IVec ⟨2, ![E, 2]⟩ w) (p : Fin E) :
    (pairScatter N M E wf).start (ix1 p) idx 0 + ((pairScatter N M E wf).window (ix1 p) 0 : ℤ)
      = (idx (ix2 p (0 : Fin 2))).toInt := by
  rw [pairScatter_window wf p 0]
  unfold ScatterDims.start
  rw [dif_pos (show (0 : Fin 2) ∈ ([0, 1] : List (Fin 2)) by decide)]
  have hsi : (pairScatter N M E wf).siIdx (ix1 p) ⟨List.idxOf (0 : Fin 2) (pairScatter N M E wf).scatterDimsToOperandDims,
      List.idxOf_lt_length_iff.2 (show (0 : Fin 2) ∈ ([0, 1] : List (Fin 2)) by decide)⟩ = ix2 p (0 : Fin 2) := by
    funext b; refine Fin.ext ?_
    match b with
    | ⟨0, _⟩ => rfl
    | ⟨1, _⟩ => rfl
  rw [hsi]
  simp

/-- On the second operand axis the landing coordinate of update position p is the second word of p read signed. -/
theorem pairScatter_land1 {N M E w : Nat}
    (wf : ScatterDims.WF ⟨2, ![N, M]⟩ ⟨2, ![E, 2]⟩ ⟨1, ![E]⟩ [] [0, 1] [0, 1] 1)
    (idx : IVec ⟨2, ![E, 2]⟩ w) (p : Fin E) :
    (pairScatter N M E wf).start (ix1 p) idx 1 + ((pairScatter N M E wf).window (ix1 p) 1 : ℤ)
      = (idx (ix2 p (1 : Fin 2))).toInt := by
  rw [pairScatter_window wf p 1]
  unfold ScatterDims.start
  rw [dif_pos (show (1 : Fin 2) ∈ ([0, 1] : List (Fin 2)) by decide)]
  have hsi : (pairScatter N M E wf).siIdx (ix1 p) ⟨List.idxOf (1 : Fin 2) (pairScatter N M E wf).scatterDimsToOperandDims,
      List.idxOf_lt_length_iff.2 (show (1 : Fin 2) ∈ ([0, 1] : List (Fin 2)) by decide)⟩ = ix2 p (1 : Fin 2) := by
    funext b; refine Fin.ext ?_
    match b with
    | ⟨0, _⟩ => rfl
    | ⟨1, _⟩ => rfl
  rw [hsi]
  simp

/-- Where an update of a pair scatter lands: position p lands on operand element (n, k) exactly when its two words,
    read signed, are n and k. -/
theorem pairScatter_resultIdx?_eq_some_iff {N M E w : Nat}
    (wf : ScatterDims.WF ⟨2, ![N, M]⟩ ⟨2, ![E, 2]⟩ ⟨1, ![E]⟩ [] [0, 1] [0, 1] 1)
    (idx : IVec ⟨2, ![E, 2]⟩ w) (p : Fin E) (n : Fin N) (k : Fin M) :
    (pairScatter N M E wf).resultIdx? (ix1 p) idx = some (ix2 n k)
      ↔ ((idx (ix2 p (0 : Fin 2))).toInt = (n.val : ℤ) ∧ (idx (ix2 p (1 : Fin 2))).toInt = (k.val : ℤ)) := by
  have h0 := pairScatter_land0 wf idx p
  have h1 := pairScatter_land1 wf idx p
  unfold ScatterDims.resultIdx?
  split
  · rename_i h
    rw [Option.some.injEq]
    constructor
    · intro hf
      have e0 : ((pairScatter N M E wf).start (ix1 p) idx 0 + ((pairScatter N M E wf).window (ix1 p) 0 : ℤ)).toNat = n.val :=
        congrArg Fin.val (congrFun hf 0)
      have e1 : ((pairScatter N M E wf).start (ix1 p) idx 1 + ((pairScatter N M E wf).window (ix1 p) 1 : ℤ)).toNat = k.val :=
        congrArg Fin.val (congrFun hf 1)
      have p0 := (h 0).1
      have p1 := (h 1).1
      rw [h0] at e0 p0
      rw [h1] at e1 p1
      exact ⟨by omega, by omega⟩
    · rintro ⟨hn, hk⟩
      funext a
      refine Fin.ext ?_
      match a with
      | ⟨0, _⟩ =>
        show ((pairScatter N M E wf).start (ix1 p) idx 0 + ((pairScatter N M E wf).window (ix1 p) 0 : ℤ)).toNat = n.val
        rw [h0, hn]; simp
      | ⟨1, _⟩ =>
        show ((pairScatter N M E wf).start (ix1 p) idx 1 + ((pairScatter N M E wf).window (ix1 p) 1 : ℤ)).toNat = k.val
        rw [h1, hk]; simp
  · rename_i h
    constructor
    · intro hf; exact absurd hf (by simp)
    · rintro ⟨hn, hk⟩
      exfalso
      apply h
      intro a
      match a with
      | ⟨0, _⟩ =>
        show 0 ≤ (pairScatter N M E wf).start (ix1 p) idx 0 + ((pairScatter N M E wf).window (ix1 p) 0 : ℤ)
          ∧ (pairScatter N M E wf).start (ix1 p) idx 0 + ((pairScatter N M E wf).window (ix1 p) 0 : ℤ) < (N : ℤ)
        rw [h0, hn]
        have := n.isLt
        omega
      | ⟨1, _⟩ =>
        show 0 ≤ (pairScatter N M E wf).start (ix1 p) idx 1 + ((pairScatter N M E wf).window (ix1 p) 1 : ℤ)
          ∧ (pairScatter N M E wf).start (ix1 p) idx 1 + ((pairScatter N M E wf).window (ix1 p) 1 : ℤ) < (M : ℤ)
        rw [h1, hk]
        have := k.isLt
        omega

/-- THE PAIR SCATTER-ADD READ AT (n, k): the operand's element plus the updates sent to (n, k). -/
theorem pairScatterAdd_apply {N M E w : Nat}
    (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w)
    (upd : (⟨1, ![E]⟩ : Shape).Idx → EReal) (n : Fin N) (k : Fin M) :
    Ideal.hostScatterAdd (pairScatter N M E wf) x idx upd (ix2 n k)
      = x (ix2 n k) + ∑ e ∈ Finset.univ.filter (fun e : Fin E =>
          (idx (ix2 e (0 : Fin 2))).toInt = (n.val : ℤ) ∧ (idx (ix2 e (1 : Fin 2))).toInt = (k.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (pairScatter_resultIdx?_eq_some_iff wf idx p n k).mp hj.2⟩
  · intro e he
    rw [Finset.mem_filter] at he ⊢
    exact ⟨Finset.mem_univ _, (pairScatter_resultIdx?_eq_some_iff wf idx e n k).mpr he.2⟩
  · intro j _
    exact (eq_ix1 j).symm
  · intro e _
    rfl
  · intro j _
    exact congrArg upd (eq_ix1 j)

/-- The dimension numbers of a gather out of a vector: operand [N], start indices [E, 1], result [E]. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the vector at the clamped start word of e. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 (⟨min (idx (ix2 e (0 : Fin 1))).toInt.toNat (N - 1), by omega⟩ : Fin N)) := by
  have h1 : ∀ {n : Nat} (p : Fin n), (Shape.Idx.ofFin p : (⟨1, ![n]⟩ : Shape).Idx) = ix1 p := by
    intro n p
    funext b
    match b with
    | ⟨0, _⟩ => exact Fin.ext rfl
  have h2 : (StableHlo.Predicate.ixP e : (⟨2, ![E, 1]⟩ : Shape).Idx) = ix2 e (0 : Fin 1) := by
    funext b
    match b with
    | ⟨0, _⟩ => rfl
    | ⟨1, _⟩ => rfl
  have key := StableHlo.Predicate.gather_take (vecGather N E wf) rfl rfl rfl rfl x idx e hN
  simp only [h1, h2] at key
  exact key

/-- Two vectors joined end to end, read at position e. -/
theorem concat_vec_apply {α : Type} {A B T : Nat} (a : (⟨1, ![A]⟩ : Shape).Idx → α) (b : (⟨1, ![B]⟩ : Shape).Idx → α)
    (h : Shape.Concatenates [(⟨1, ![A]⟩ : Shape), ⟨1, ![B]⟩] ⟨1, ![T]⟩ 0) (hT : T = A + B) (e : Fin T) :
    concatenate ⟨1, ![T]⟩ 0 [⟨⟨1, ![A]⟩, a⟩, ⟨⟨1, ![B]⟩, b⟩] h (ix1 e)
      = if hlt : e.val < A then a (ix1 (⟨e.val, hlt⟩ : Fin A)) else b (ix1 (⟨e.val - A, by omega⟩ : Fin B)) := by
  by_cases hlt : e.val < A
  · rw [dif_pos hlt]
    exact concatenate_pair_apply_left (t := ⟨1, ![T]⟩) (s₁ := ⟨1, ![A]⟩) (s₂ := ⟨1, ![B]⟩) (0 : Fin 1) a b h (ix1 e) rfl
      (ix1 (⟨e.val, hlt⟩ : Fin A)) (fun c => by match c with | ⟨0, _⟩ => rfl)
  · rw [dif_neg hlt]
    exact concatenate_pair_apply_right (t := ⟨1, ![T]⟩) (s₁ := ⟨1, ![A]⟩) (s₂ := ⟨1, ![B]⟩) (0 : Fin 1) a b h (ix1 e) rfl rfl
      (ix1 (⟨e.val - A, by omega⟩ : Fin B)) (fun c hc => by match c, hc with | ⟨0, _⟩, hc => exact absurd rfl hc)
      (by show (e.val - A) + A = e.val; omega)

/-- Two columns joined side by side, read at the first column. -/
theorem concat_cols_apply0 {α : Type} {E : Nat} (a b : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e (0 : Fin 2)) = a (ix2 e (0 : Fin 1)) := by
  exact concatenate_pair_apply_left (t := ⟨2, ![E, 2]⟩) (s₁ := ⟨2, ![E, 1]⟩) (s₂ := ⟨2, ![E, 1]⟩) (1 : Fin 2) a b h
    (ix2 e (0 : Fin 2)) rfl (ix2 e (0 : Fin 1)) (fun c => by match c with | ⟨0, _⟩ => rfl | ⟨1, _⟩ => rfl)

/-- Two columns joined side by side, read at the second column. -/
theorem concat_cols_apply1 {α : Type} {E : Nat} (a b : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e (1 : Fin 2)) = b (ix2 e (0 : Fin 1)) := by
  exact concatenate_pair_apply_right (t := ⟨2, ![E, 2]⟩) (s₁ := ⟨2, ![E, 1]⟩) (s₂ := ⟨2, ![E, 1]⟩) (1 : Fin 2) a b h
    (ix2 e (1 : Fin 2)) rfl rfl (ix2 e (0 : Fin 1))
    (fun c hc => by match c, hc with | ⟨0, _⟩, _ => rfl | ⟨1, _⟩, hc => exact absurd rfl hc)
    (by show 0 + 1 = 1; rfl)

/-- The wrap of a negative index leaves a non-negative word as it is. -/
theorem wrap_of_nonneg (w : BitVec 32) (h : 0 ≤ w.toInt) :
    Scalar.select (IntOp.cmpi .slt w 0#32) (IntOp.addi w 1024#32) w = w := by
  have hs : w.slt 0#32 = false := by
    unfold BitVec.slt
    rw [decide_eq_false_iff_not]
    have : (0#32).toInt = 0 := by decide
    omega
  unfold Scalar.select IntOp.cmpi
  simp only [hs]
  rw [if_neg (by decide)]

end Idealize.ShloMosaic.GraphOps

end
-- ==== Proof.KernelGraph.lean ====
/-
  The kernel's host arrays read at an index, at the ideal values: the appended edge words; the count matrix, whose
  entry (n, k) is the number of edges from k to n; its row sums, the in-degrees; their inverse roots.
-/
import proofs.«409722_j76278619177162_3_alg».proof.Proof.KernelHost
import proofs.«409722_j76278619177162_3_alg».proof.Proof.Spec
import proofs.«409722_j76278619177162_3_alg».proof.Proof.Nodes
import proofs.«409722_j76278619177162_3_alg».proof.Proof.Algebra
import proofs.«409722_j76278619177162_3_alg».proof.Proof.LibGraphOps
import Idealize.ShloMosaic.PureOps.Ideal.Laws
import Idealize.ShloMosaic.Lib.Pipeline.Value

set_option maxRecDepth 16384

noncomputable section

namespace Cert.KernelIdeal.KernelGraph

open Cert.KernelIdeal Cert.KernelIdeal.Gen Cert.KernelIdeal.KernelHost
open Idealize.ShloMosaic Idealize.ShloMosaic.ValueIdx Cert.Gcn

variable (ei : IVec S2x1047552 32)

/-- Row 0 of the edge array as a vector, read at position p. -/
theorem row0_apply (p : Fin 1047552) :
    shapeCast S1047552 (extractStridedSlice S1x1047552 ![0, 0] ei slices_S2x1047552_S1x1047552_0_0)
      shapeCasts_S1x1047552_S1047552 (ix1 p) = ei (ix2 (0 : Fin 2) p) := by
  rw [shapeCast_apply (extractStridedSlice S1x1047552 ![0, 0] ei slices_S2x1047552_S1x1047552_0_0)
    shapeCasts_S1x1047552_S1047552 (ix1 p) (ix2 (0 : Fin 1) p)
    (by rw [Shape.rowMajor_val_two, Shape.rowMajor_val_one]; show 0 * 1047552 + p.val = p.val; omega)]
  exact extractStridedSlice_apply ![0, 0] ei slices_S2x1047552_S1x1047552_0_0 (ix2 (0 : Fin 1) p) (ix2 (0 : Fin 2) p)
    (fun a => match a with
      | ⟨0, _⟩ => by show (0 : Nat) = 0 + 0; omega
      | ⟨1, _⟩ => by show p.val = 0 + p.val; omega)

/-- Row 1 of the edge array as a vector, read at position p. -/
theorem row1_apply (p : Fin 1047552) :
    shapeCast S1047552 (extractStridedSlice S1x1047552 ![1, 0] ei slices_S2x1047552_S1x1047552_1_0)
      shapeCasts_S1x1047552_S1047552 (ix1 p) = ei (ix2 (1 : Fin 2) p) := by
  rw [shapeCast_apply (extractStridedSlice S1x1047552 ![1, 0] ei slices_S2x1047552_S1x1047552_1_0)
    shapeCasts_S1x1047552_S1047552 (ix1 p) (ix2 (0 : Fin 1) p)
    (by rw [Shape.rowMajor_val_two, Shape.rowMajor_val_one]; show 0 * 1047552 + p.val = p.val; omega)]
  exact extractStridedSlice_apply ![1, 0] ei slices_S2x1047552_S1x1047552_1_0 (ix2 (0 : Fin 1) p) (ix2 (1 : Fin 2) p)
    (fun a => match a with
      | ⟨0, _⟩ => by show (1 : Nat) = 1 + 0; omega
      | ⟨1, _⟩ => by show p.val = 0 + p.val; omega)

/-- The source words with the self loops appended. -/
theorem kSrc_word (e : Fin 1048576) : kSrc ei (ix1 e) = srcW ei e := by
  unfold kSrc
  rw [GraphOps.concat_vec_apply _ (iotaInDim S1024 32 0) concatenates_S1047552_S1024_S1048576_d0 (by norm_num) e]
  unfold srcW
  split
  · rename_i h
    exact row0_apply ei ⟨e.val, h⟩
  · rfl

/-- The destination words with the self loops appended. -/
theorem kDst_word (e : Fin 1048576) : kDst ei (ix1 e) = dstW ei e := by
  unfold kDst
  rw [GraphOps.concat_vec_apply _ (iotaInDim S1024 32 0) concatenates_S1047552_S1024_S1048576_d0 (by norm_num) e]
  unfold dstW
  split
  · rename_i h
    exact row1_apply ei ⟨e.val, h⟩
  · rfl

/-- The wrap at position e. -/
theorem kWrap_apply (v : IVec S1048576 32) (e : Fin 1048576) :
    kWrap v (ix1 e)
      = Scalar.select (IntOp.cmpi .slt (v (ix1 e)) 0#32) (IntOp.addi (v (ix1 e)) 1024#32) (v (ix1 e)) := rfl

/-- A vector as a column reads, at (e, 0), the vector at e. -/
theorem col_apply (v : IVec S1048576 32) (e : Fin 1048576) :
    broadcastInDim S1048576x1 ![0] bcast_S1048576_S1048576x1_0 v (ix2 e (0 : Fin 1)) = v (ix1 e) :=
  broadcastInDim_apply _ bcast_S1048576_S1048576x1_0 v (ix2 e (0 : Fin 1)) (ix1 e) (fun a => match a with
    | ⟨0, _⟩ => by show e.val = if (1048576 : Nat) = 1 then 0 else e.val; rw [if_neg (by decide)])

/-- The first word of pair e is the destination word. -/
theorem kIdx_apply0 (hei : ∀ i, 0 ≤ (ei i).toInt ∧ (ei i).toInt < 1024) (e : Fin 1048576) :
    kIdx ei (ix2 e (0 : Fin 2)) = dstW ei e := by
  unfold kIdx
  rw [GraphOps.concat_cols_apply0, col_apply, kWrap_apply, kDst_word]
  exact GraphOps.wrap_of_nonneg _ (dstW_inrange ei hei e).1

/-- The second word of pair e is the source word. -/
theorem kIdx_apply1 (hei : ∀ i, 0 ≤ (ei i).toInt ∧ (ei i).toInt < 1024) (e : Fin 1048576) :
    kIdx ei (ix2 e (1 : Fin 2)) = srcW ei e := by
  unfold kIdx
  rw [GraphOps.concat_cols_apply1, col_apply, kWrap_apply, kSrc_word]
  exact GraphOps.wrap_of_nonneg _ (srcW_inrange ei hei e).1

/-- The dimension numbers of the count matrix's scatter are those of a pair scatter. -/
theorem pairRec_eq : scatter_S1024x1024_S1048576x2_S1048576_n_01_01_1
      = GraphOps.pairScatter 1024 1024 1048576 Facts₀.scatter_S1024x1024_S1048576x2_S1048576_n_01_01_1_wf := rfl

/-- The count matrix as the exact accumulating scatter of the ones into the zeros. -/
theorem kAdj_eq : kAdj (F := Ideal) ei
    = Ideal.hostScatterAdd
        (GraphOps.pairScatter 1024 1024 1048576 Facts₀.scatter_S1024x1024_S1048576x2_S1048576_n_01_01_1_wf)
        (broadcastInDim S1024x1024 ![] bcast_S_S1024x1024 (constant (F := Ideal) S_ .f32 0x00000000#32)) (kIdx ei)
        (broadcastInDim S1048576 ![] bcast_S_S1048576 (constant (F := Ideal) S_ .f32 0x3F800000#32)) := by
  unfold kAdj
  rw [pairRec_eq]
  rfl

/-- The count matrix at (n, k): the zero plus the ones over the positions whose pair of words is (n, k). -/
theorem kAdj_at (n k : Fin 1024) : kAdj (F := Ideal) ei (ix2 n k)
    = broadcastInDim S1024x1024 ![] bcast_S_S1024x1024 (constant (F := Ideal) S_ .f32 0x00000000#32) (ix2 n k)
      + ∑ e ∈ Finset.univ.filter (fun e : Fin 1048576 =>
          (kIdx ei (ix2 e (0 : Fin 2))).toInt = (n.val : ℤ) ∧ (kIdx ei (ix2 e (1 : Fin 2))).toInt = (k.val : ℤ)),
          broadcastInDim S1048576 ![] bcast_S_S1048576 (constant (F := Ideal) S_ .f32 0x3F800000#32) (ix1 e) := by
  rw [kAdj_eq]
  exact GraphOps.pairScatterAdd_apply (w := 32) Facts₀.scatter_S1024x1024_S1048576x2_S1048576_n_01_01_1_wf
    (broadcastInDim S1024x1024 ![] bcast_S_S1024x1024 (constant (F := Ideal) S_ .f32 0x00000000#32)) (kIdx ei)
    (broadcastInDim S1048576 ![] bcast_S_S1048576 (constant (F := Ideal) S_ .f32 0x3F800000#32)) n k

/-- The zero splat at an index. -/
theorem zeros_apply (j : S1024x1024.Idx) :
    broadcastInDim S1024x1024 ![] bcast_S_S1024x1024 (constant (F := Ideal) S_ .f32 0x00000000#32) j = 0 := by
  show Ideal.ofBits .f32 0x00000000#32 = 0
  exact Ideal.ofBits_zero_f32

/-- The splat of ones at an index. -/
theorem ones_apply (j : S1048576.Idx) :
    broadcastInDim S1048576 ![] bcast_S_S1048576 (constant (F := Ideal) S_ .f32 0x3F800000#32) j = 1 := by
  show Ideal.ofBits .f32 0x3F800000#32 = 1
  exact ofBits_one_f32

/-- The count matrix at (n, k): the number of edges from k to n. -/
theorem kAdj_apply (hei : ∀ i, 0 ≤ (ei i).toInt ∧ (ei i).toInt < 1024) (n k : Fin 1024) :
    kAdj (F := Ideal) ei (ix2 n k) = adj (src ei) (dst ei) n k := by
  rw [kAdj_at, zeros_apply, zero_add]
  unfold adj
  have hf : Finset.univ.filter (fun e : Fin 1048576 =>
        (kIdx ei (ix2 e (0 : Fin 2))).toInt = (n.val : ℤ) ∧ (kIdx ei (ix2 e (1 : Fin 2))).toInt = (k.val : ℤ))
      = Finset.univ.filter (fun e : Fin 1048576 => dst ei e = n ∧ src ei e = k) := by
    apply Finset.filter_congr
    intro e _
    rw [kIdx_apply0 ei hei, kIdx_apply1 ei hei]
    exact and_congr (toInt_eq_iff_node _ (dstW_inrange ei hei e).1 (dstW_inrange ei hei e).2 n)
      (toInt_eq_iff_node _ (srcW_inrange ei hei e).1 (srcW_inrange ei hei e).2 k)
  rw [hf]
  apply Finset.sum_congr rfl
  intro e _
  exact ones_apply _

/-- The in-degrees. -/
theorem kDeg_apply (hei : ∀ i, 0 ≤ (ei i).toInt ∧ (ei i).toInt < 1024) (n : Fin 1024) :
    kDeg (F := Ideal) ei (ix1 n) = deg (dst ei) n := by
  have hR : S1024x1024.Reduces [1] S1024 := by decide
  unfold kDeg
  show Ideal.hostReduceAdd reducesTo_S1024x1024_S1024_d1 (kAdj (F := Ideal) ei) (Ideal.ofBits .f32 0x00000000#32)
    (ix1 n) = deg (dst ei) n
  rw [Ideal.hostReduceAdd_single reducesTo_S1024x1024_S1024_d1 hR, Ideal.ofBits_zero_f32, zero_add,
    ← adj_row_sum (src ei) (dst ei) n]
  apply Finset.sum_congr rfl
  intro k _
  have hl : hR.lift (ix1 n) k = ix2 n k := by
    funext a
    match a with
    | ⟨0, _⟩ => rfl
    | ⟨1, _⟩ => rfl
  rw [hl]
  exact kAdj_apply ei hei n k

/-- The inverse root degrees. -/
theorem kDinv_apply (hei : ∀ i, 0 ≤ (ei i).toInt ∧ (ei i).toInt < 1024) (n : Fin 1024) :
    kDinv (F := Ideal) ei (ix1 n) = q ei n := by
  show Scalar.select (FloatOps.cmpf .ogt (kDeg (F := Ideal) ei (ix1 n)) (FloatOps.ofBits (F := Ideal) .f32 0x00000000#32))
      (FloatOps.hostUnary .rsqrt (kDeg (F := Ideal) ei (ix1 n))) (FloatOps.ofBits (F := Ideal) .f32 0x00000000#32) = q ei n
  rw [kDeg_apply ei hei, Ideal.ofBits_def, Ideal.ofBits_zero_f32, Ideal.hostUnary_rsqrt_def, Ideal.cmpf_def]
  unfold q dinv Scalar.select Ideal.cmp
  by_cases h : 0 < deg (dst ei) n
  · rw [if_pos h, if_pos]
    simp [h]
  · rw [if_neg h, if_neg]
    simp [h]

end Cert.KernelIdeal.KernelGraph

end
-- ==== Proof.KernelLayout.lean ====
/-
  The reshapes the kernel's @main puts in front of its pallas_call, read at an index: a vector [n] as a column [n, 1]
  reads at (k, 0) the vector at k; a vector [n] as a row [1, n] reads at (0, j) the vector at j; a rounding of a
  matrix to bf16 is the identity at the ideal values.
-/
import proofs.«409722_j76278619177162_3_alg».proof.KernelIdeal
import proofs.«409722_j76278619177162_3_alg».proof.Proof.Gen.KernelIdeal
import Idealize.ShloMosaic.PureOps.Ideal
import Idealize.ShloMosaic.Lib.ValueIdx
import Idealize.ShloMosaic.Lib.ValueLayout
import Idealize.ShloMosaic.Lib.Pipeline.Value

set_option maxRecDepth 16384

noncomputable section

namespace Cert.KernelIdeal.KernelLayout

open Cert.KernelIdeal Cert.KernelIdeal.Gen Idealize.ShloMosaic Idealize.ShloMosaic.ValueIdx

/-- A vector of 1024 as a column. -/
theorem col1024_apply {α : Type} (x : S1024.Idx → α) (k : Fin 1024) :
    shapeCast S1024x1 x shapeCasts_S1024_S1024x1 (ix2 k (0 : Fin 1)) = x (ix1 k) := by
  refine shapeCast_apply x shapeCasts_S1024_S1024x1 (ix2 k (0 : Fin 1)) (ix1 k) ?_
  rw [Shape.rowMajor_val_two, Shape.rowMajor_val_one]
  show k.val = k.val * 1 + 0
  omega

/-- A vector of 128 as a row. -/
theorem row128_apply {α : Type} (x : S128.Idx → α) (j : Fin 128) :
    shapeCast S1x128 x shapeCasts_S128_S1x128 (ix2 (0 : Fin 1) j) = x (ix1 j) := by
  exact shapeCast_a_1a_apply x shapeCasts_S128_S1x128 (0 : Fin 1) j

/-- A vector of 64 as a row. -/
theorem row64_apply {α : Type} (x : S64.Idx → α) (c : Fin 64) :
    shapeCast S1x64 x shapeCasts_S64_S1x64 (ix2 (0 : Fin 1) c) = x (ix1 c) := by
  exact shapeCast_a_1a_apply x shapeCasts_S64_S1x64 (0 : Fin 1) c

/-- Rounding to bf16 is the identity at the ideal values. -/
theorem truncf_apply {s : Shape} (x : FVec Ideal s .f32) (i : s.Idx) :
    truncf (F := Ideal) .bf16 x bitsLt_bf16_f32 i = x i := by
  unfold truncf
  exact Ideal.truncf_def (x i) .bf16 bitsLt_bf16_f32

end Cert.KernelIdeal.KernelLayout

end
-- ==== Proof.KernelPayload.lean ====
/-
  The kernel body's arithmetic read at an index, at the ideal values. The body loads the labels, the embedding table,
  the two weight matrices (rounded to bf16 on the host: the identity here), the two biases, the count matrix B and the
  inverse root degrees q as a column, and stores ONE value. Its hidden part (the rounded relu activations) at (n, j):
  the one-hot matrix of the clipped labels times the embedding table picks row node(label k) for row k; that times W1;
  each row k scaled by q(k); B times that; each row n scaled by q(n); plus b1(j); maximum with 0. Its stored value at
  (n, c): the hidden part times W2, scaled, multiplied by B, scaled again, plus b2(c).
-/
import proofs.«409722_j76278619177162_3_alg».proof.Proof.Gen.KernelIdeal.Skeleton
import proofs.«409722_j76278619177162_3_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Payload

open Cert.KernelIdeal Cert.KernelIdeal.Gen Idealize.ShloMosaic Idealize.ShloMosaic.ValueIdx Cert.Gcn

/-! ## Layout and the one-hot matrix of the clipped labels -/

/-- A column [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The signed maximum with 0, as a signed number. -/
theorem maxsi_zero_toInt (w : BitVec 32) : (IntOp.maxsi 0#32 w).toInt = max w.toInt 0 := by
  have h0 : (0#32 : BitVec 32).toInt = 0 := by decide
  unfold IntOp.maxsi
  split
  · rename_i h
    have h' : w.toInt < (0#32 : BitVec 32).toInt := by simpa [BitVec.slt] using h
    rw [h0] at h' ⊢
    omega
  · rename_i h
    have h' : ¬ w.toInt < (0#32 : BitVec 32).toInt := by simpa [BitVec.slt] using h
    rw [h0] at h'
    omega

/-- The signed minimum with 1023, as a signed number. -/
theorem minsi_1023_toInt (m : BitVec 32) : (IntOp.minsi 1023#32 m).toInt = min m.toInt 1023 := by
  have h1 : (1023#32 : BitVec 32).toInt = 1023 := by decide
  unfold IntOp.minsi
  split
  · rename_i h
    have h' : (1023#32 : BitVec 32).toInt < m.toInt := by simpa [BitVec.slt] using h
    rw [h1] at h' ⊢
    omega
  · rename_i h
    have h' : ¬ (1023#32 : BitVec 32).toInt < m.toInt := by simpa [BitVec.slt] using h
    rw [h1] at h'
    omega

/-- The word clipped into [0, 1023] as a signed number names the node of the word. -/
theorem clip_toInt (w : BitVec 32) :
    (IntOp.minsi 1023#32 (IntOp.maxsi 0#32 w)).toInt = ((node w).val : ℤ) := by
  rw [minsi_1023_toInt, maxsi_zero_toInt]
  show min (max w.toInt 0) 1023 = ((min w.toInt.toNat 1023 : ℕ) : ℤ)
  omega

/-- The lane number l, as a word, is the clipped word exactly when l is the node of the word. -/
theorem ofNat_eq_clip_iff (w : BitVec 32) (l : Fin 1024) :
    BitVec.ofNat 32 l.val = IntOp.minsi 1023#32 (IntOp.maxsi 0#32 w) ↔ l = node w := by
  have hc := clip_toInt w
  generalize IntOp.minsi 1023#32 (IntOp.maxsi 0#32 w) = c at hc
  have hn : (node w).val < 1024 := (node w).isLt
  have hl := l.isLt
  have hcn : c.toNat = (node w).val := by
    have h1 := BitVec.toInt_eq_toNat_cond c
    have h2 := c.isLt
    split at h1 <;> omega
  constructor
  · intro h
    have h3 : (BitVec.ofNat 32 l.val).toNat = c.toNat := by rw [h]
    rw [BitVec.toNat_ofNat] at h3
    exact Fin.ext (by omega)
  · intro h
    apply BitVec.eq_of_toNat_eq
    rw [BitVec.toNat_ofNat, hcn, h]
    omega

/-- The one-hot entry at lane l of the row of word w: 1 at the node of w, 0 elsewhere. -/
theorem onehot_entry (w : BitVec 32) (l : Fin 1024) :
    ((((IntOp.cmpi .eq (BitVec.ofNat 32 l.val) (IntOp.minsi 1023#32 (IntOp.maxsi 0#32 w))).setWidth 32).toInt : ℝ) : EReal)
      = if l = node w then 1 else 0 := by
  have ht : ((BitVec.ofBool true).setWidth 32).toInt = 1 := by decide
  have hf : ((BitVec.ofBool false).setWidth 32).toInt = 0 := by decide
  by_cases h : l = node w
  · have e : (BitVec.ofNat 32 l.val == IntOp.minsi 1023#32 (IntOp.maxsi 0#32 w)) = true :=
      beq_iff_eq.2 ((ofNat_eq_clip_iff w l).2 h)
    show ((((BitVec.ofBool (BitVec.ofNat 32 l.val == IntOp.minsi 1023#32 (IntOp.maxsi 0#32 w))).setWidth 32).toInt : ℝ) : EReal) = _
    rw [e, ht, if_pos h]
    simp
  · have e : (BitVec.ofNat 32 l.val == IntOp.minsi 1023#32 (IntOp.maxsi 0#32 w)) = false := by
      rw [beq_eq_false_iff_ne]
      exact fun h' => h ((ofNat_eq_clip_iff w l).1 h')
    show ((((BitVec.ofBool (BitVec.ofNat 32 l.val == IntOp.minsi 1023#32 (IntOp.maxsi 0#32 w))).setWidth 32).toInt : ℝ) : EReal) = _
    rw [e, hf, if_neg h]
    simp

/-- A one-hot row times a column picks the column's entry at the hot lane. -/
theorem onehot_sum (f : Fin 1024 → EReal) (m : Fin 1024) :
    ∑ l : Fin 1024, (if l = m then (1 : EReal) else 0) * f l = f m := by
  rw [Finset.sum_eq_single m]
  · rw [if_pos rfl, one_mul]
  · intro b _ hb; rw [if_neg hb, zero_mul]
  · intro h; exact absurd (Finset.mem_univ m) h

/-- The one-hot matrix of the clipped labels at (k, l): 1 where l is the node of label k, 0 elsewhere. -/
theorem onehot_apply (v0 : Vec Ideal S1024x1 .i32) (k l : Fin 1024) :
    truncf (F := Ideal) .bf16 (sitofp .f32 (extui 32 (cmpi .eq (iota .tc S1024x1024 32 [1] iota_S1024x1024_d1_w32)
        (broadcastTo S1024x1024 (minsi (broadcast S1024x1 1023#32) (maxsi (broadcast S1024x1 0#32) v0))
          broadcasts_S1024x1_S1024x1024)) natLt_1_32)) bitsLt_bf16_f32 (ix2 k l)
      = if l = node (v0 (ix2 k (0 : Fin 1))) then 1 else 0 := by
  show ((((IntOp.cmpi .eq (iota .tc S1024x1024 32 [1] iota_S1024x1024_d1_w32 (ix2 k l))
      (broadcastTo S1024x1024 (minsi (broadcast S1024x1 1023#32) (maxsi (broadcast S1024x1 0#32) v0))
        broadcasts_S1024x1_S1024x1024 (ix2 k l))).setWidth 32).toInt : ℝ) : EReal) = _
  rw [iota_single_apply, broadcastTo_a1_ab_apply]
  exact onehot_entry (v0 (ix2 k (0 : Fin 1))) l

/-- The three re-laid loads are the loads themselves (a shape cast to the same shape). -/
theorem pay2_eq (v19 : Vec Ideal S1024x1 .f32) : k0_pay2 (F := Ideal) v19 = v19 := by
  unfold k0_pay2
  exact shapeCast_self _ _
theorem pay3_eq (v21 : Vec Ideal S1024x1024 .bf16) : k0_pay3 (F := Ideal) v21 = v21 := by
  unfold k0_pay3
  exact shapeCast_self _ _
theorem pay4_eq (v35 : Vec Ideal S128x64 .bf16) : k0_pay4 (F := Ideal) v35 = v35 := by
  unfold k0_pay4
  exact shapeCast_self _ _

/-! ## A product into the zero accumulator, read at an index

One group per shape record: the operand indices of the product at output index i and contraction index q, coordinate
by coordinate (the left operand's are (i 0, q), the right operand's (q, i 1)), then the product read at (r, c). -/

theorem lhs_K1024N64_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_K1024N64_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_K1024N64_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_K1024N64_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl
/-- The product into the zero accumulator at (r, c): the sum over the contracted axis. -/
theorem matmul_K1024N64_apply {φ₁ φ₂ : FTy} (lhs : FVec Ideal S1024x1024 φ₁) (rhs : FVec Ideal S1024x64 φ₂) (r : Fin 1024) (c : Fin 64) :
    matmul (F := Ideal) dot_S1024x1024_S1024x64_S1024x64_1_0_0_1_n_n none lhs rhs (constant S1024x64 .f32 0x00000000#32) (ix2 r c)
      = ∑ k : Fin 1024, lhs (ix2 r k) * rhs (ix2 k c) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 r c) ((ValueIdx.contrEquiv1 dot_S1024x1024_S1024x64_S1024x64_1_0_0_1_n_n 1024 rfl rfl).symm k) = ix2 r k := funext fun a => Fin.ext (by
    match a with
    | ⟨0, _⟩ => exact lhs_K1024N64_0 _ _
    | ⟨1, _⟩ => exact (lhs_K1024N64_1 _ _).trans hk)
  have er : dot_S1024x1024_S1024x64_S1024x64_1_0_0_1_n_n.rhsIdx (ix2 r c) ((ValueIdx.contrEquiv1 dot_S1024x1024_S1024x64_S1024x64_1_0_0_1_n_n 1024 rfl rfl).symm k) = ix2 k c := funext fun a => Fin.ext (by
    match a with
    | ⟨0, _⟩ => exact (rhs_K1024N64_0 _ _).trans hk
    | ⟨1, _⟩ => exact rhs_K1024N64_1 _ _)
  rw [el, er]

theorem lhs_K64N128_0 (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl
theorem lhs_K64N128_1 (i : S1024x128.Idx) (q : dot_S1024x64_S64x128_S1024x128_1_0_0_1_n_n.contr.Idx) :
    (dot_S1024x64_S64x128_S1024x128_1_0_0_1_n_n.lhsIdx i q 1).val = (q ⟨0, by decide⟩).val :=
  dot_S1024x64_S64x128_S1024x128_1_0_0_1_n_n.lhsIdx_val_of_single rfl i q
theorem rhs_K64N128_0 (i : S1024x128.Idx) (q : dot_S1024x64_S64x128_S1024x128_1_0_0_1_n_n.contr.Idx) :
    (dot_S1024x64_S64x128_S1024x128_1_0_0_1_n_n.rhsIdx i q 0).val = (q ⟨0, by decide⟩).val :=
  dot_S1024x64_S64x128_S1024x128_1_0_0_1_n_n.rhsIdx_val_of_single rfl i q
theorem rhs_K64N128_1 (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl
/-- The product into the zero accumulator at (r, c): the sum over the contracted axis. -/
theorem matmul_K64N128_apply {φ₁ φ₂ : FTy} (lhs : FVec Ideal S1024x64 φ₁) (rhs : FVec Ideal S64x128 φ₂) (r : Fin 1024) (c : Fin 128) :
    matmul (F := Ideal) dot_S1024x64_S64x128_S1024x128_1_0_0_1_n_n none lhs rhs (constant S1024x128 .f32 0x00000000#32) (ix2 r c)
      = ∑ k : Fin 64, lhs (ix2 r k) * rhs (ix2 k c) := by
  simp only [matmul]
  rw [Ideal.matmul_constant_zero_apply, ← Equiv.sum_comp (ValueIdx.contrEquiv1 dot_S1024x64_S64x128_S1024x128_1_0_0_1_n_n 64 rfl rfl).symm]
  refine Finset.sum_congr rfl fun k _ => ?_
  have hk := ValueIdx.contrEquiv1_symm_val dot_S1024x64_S64x128_S1024x128_1_0_0_1_n_n 64 rfl rfl k
  have el : dot_S1024x64_S64x128_S1024x128_1_0_0_1_n_n.lhsIdx (ix2 r c) ((ValueIdx.contrEquiv1 dot_S1024x64_S64x128_S1024x128_1_0_0_1_n_n 64 rfl rfl).symm k) = ix2 r k := funext fun a => Fin.ext (by
    match a with
    | ⟨0, _⟩ => exact lhs_K64N128_0 _ _
    | ⟨1, _⟩ => exact (lhs_K64N128_1 _ _).trans hk)
  have er : dot_S1024x64_S64x128_S1024x128_1_0_0_1_n_n.rhsIdx (ix2 r c) ((ValueIdx.contrEquiv1 dot_S1024x64_S64x128_S1024x128_1_0_0_1_n_n 64 rfl rfl).symm k) = ix2 k c := funext fun a => Fin.ext (by
    match a with
    | ⟨0, _⟩ => exact (rhs_K64N128_0 _ _).trans hk
    | ⟨1, _⟩ => exact rhs_K64N128_1 _ _)
  rw [el, er]

theorem lhs_K1024N128_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_K1024N128_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_K1024N128_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_K1024N128_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl
/-- The product into the zero accumulator at (r, c): the sum over the contracted axis. -/
theorem matmul_K1024N128_apply {φ₁ φ₂ : FTy} (lhs : FVec Ideal S1024x1024 φ₁) (rhs : FVec Ideal S1024x128 φ₂) (r : Fin 1024) (c : Fin 128) :
    matmul (F := Ideal) dot_S1024x1024_S1024x128_S1024x128_1_0_0_1_n_n none lhs rhs (constant S1024x128 .f32 0x00000000#32) (ix2 r c)
      = ∑ k : Fin 1024, lhs (ix2 r k) * rhs (ix2 k c) := by
  simp only [matmul]
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 r c) ((ValueIdx.contrEquiv1 dot_S1024x1024_S1024x128_S1024x128_1_0_0_1_n_n 1024 rfl rfl).symm k) = ix2 r k := funext fun a => Fin.ext (by
    match a with
    | ⟨0, _⟩ => exact lhs_K1024N128_0 _ _
    | ⟨1, _⟩ => exact (lhs_K1024N128_1 _ _).trans hk)
  have er : dot_S1024x1024_S1024x128_S1024x128_1_0_0_1_n_n.rhsIdx (ix2 r c) ((ValueIdx.contrEquiv1 dot_S1024x1024_S1024x128_S1024x128_1_0_0_1_n_n 1024 rfl rfl).symm k) = ix2 k c := funext fun a => Fin.ext (by
    match a with
    | ⟨0, _⟩ => exact (rhs_K1024N128_0 _ _).trans hk
    | ⟨1, _⟩ => exact rhs_K1024N128_1 _ _)
  rw [el, er]

theorem lhs_K128N64_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhs_K128N64_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs_K128N64_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs_K128N64_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl
/-- The product into the zero accumulator at (r, c): the sum over the contracted axis. -/
theorem matmul_K128N64_apply {φ₁ φ₂ : FTy} (lhs : FVec Ideal S1024x128 φ₁) (rhs : FVec Ideal S128x64 φ₂) (r : Fin 1024) (c : Fin 64) :
    matmul (F := Ideal) dot_S1024x128_S128x64_S1024x64_1_0_0_1_n_n none lhs rhs (constant S1024x64 .f32 0x00000000#32) (ix2 r c)
      = ∑ k : Fin 128, lhs (ix2 r k) * rhs (ix2 k c) := by
  simp only [matmul]
  rw [Ideal.matmul_constant_zero_apply, ← Equiv.sum_comp (ValueIdx.contrEquiv1 dot_S1024x128_S128x64_S1024x64_1_0_0_1_n_n 128 rfl rfl).symm]
  refine Finset.sum_congr rfl fun k _ => ?_
  have hk := ValueIdx.contrEquiv1_symm_val dot_S1024x128_S128x64_S1024x64_1_0_0_1_n_n 128 rfl rfl k
  have el : dot_S1024x128_S128x64_S1024x64_1_0_0_1_n_n.lhsIdx (ix2 r c) ((ValueIdx.contrEquiv1 dot_S1024x128_S128x64_S1024x64_1_0_0_1_n_n 128 rfl rfl).symm k) = ix2 r k := funext fun a => Fin.ext (by
    match a with
    | ⟨0, _⟩ => exact lhs_K128N64_0 _ _
    | ⟨1, _⟩ => exact (lhs_K128N64_1 _ _).trans hk)
  have er : dot_S1024x128_S128x64_S1024x64_1_0_0_1_n_n.rhsIdx (ix2 r c) ((ValueIdx.contrEquiv1 dot_S1024x128_S128x64_S1024x64_1_0_0_1_n_n 128 rfl rfl).symm k) = ix2 k c := funext fun a => Fin.ext (by
    match a with
    | ⟨0, _⟩ => exact (rhs_K128N64_0 _ _).trans hk
    | ⟨1, _⟩ => exact rhs_K128N64_1 _ _)
  rw [el, er]

/-- THE HIDDEN PART AT (n, j). -/
theorem pay5_apply (v0 : Vec Ideal S1024x1 .i32) (v12 : Vec Ideal S1024x64 .f32) (v16 : Vec Ideal S64x128 .bf16)
    (v19 : Vec Ideal S1024x1 .f32) (v21 : Vec Ideal S1024x1024 .bf16) (v29 : Vec Ideal S1x128 .f32)
    (n : Fin 1024) (j : Fin 128) :
    k0_pay5 (F := Ideal) v0 v12 v16 v19 v21 v29 (ix2 n j)
      = max ((∑ k : Fin 1024, v21 (ix2 n k)
              * ((∑ i : Fin 64, v12 (ix2 (node (v0 (ix2 k (0 : Fin 1)))) i) * v16 (ix2 i j)) * v19 (ix2 k (0 : Fin 1))))
            * v19 (ix2 n (0 : Fin 1)) + v29 (ix2 (0 : Fin 1) j)) 0 := by
  unfold k0_pay5
  simp only [pay2_eq, pay3_eq, shapeCast_self]
  -- the outer pointwise operations at (n, j): a rounding is the identity, the zero splat is 0
  simp only [truncf, maximumf, addf, mulf, broadcast, Ideal.truncf_def, Ideal.maximumf_def, Ideal.addf_def, Ideal.mulf_def,
    Ideal.ofBits_def, Ideal.ofBits_zero_f32]
  -- B times the scaled table, the column q broadcast along a row, the bias row broadcast down
  rw [matmul_K1024N128_apply, broadcastTo_a1_ab_apply, broadcastTo_1b_ab_apply]
  refine congrArg (fun s => max (s * v19 (ix2 n (0 : Fin 1)) + v29 (ix2 (0 : Fin 1) j)) 0) (Finset.sum_congr rfl fun k _ => ?_)
  refine congrArg (v21 (ix2 n k) * ·) ?_
  -- the scaled table at (k, j): the picked rows times W1, times q(k)
  simp only [truncf, mulf, Ideal.truncf_def, Ideal.mulf_def]
  rw [matmul_K64N128_apply, broadcastTo_a1_ab_apply]
  refine congrArg (· * v19 (ix2 k (0 : Fin 1))) (Finset.sum_congr rfl fun i _ => ?_)
  refine congrArg (· * v16 (ix2 i j)) ?_
  -- the one-hot matrix times the embedding table at (k, i): row node(label k)
  simp only [truncf, Ideal.truncf_def]
  rw [matmul_K1024N64_apply]
  refine (Finset.sum_congr rfl fun l _ =>
    congrArg (· * truncf (F := Ideal) .bf16 v12 bitsLt_bf16_f32 (ix2 l i)) (onehot_apply v0 k l)).trans ?_
  exact onehot_sum (fun l => v12 (ix2 l i)) (node (v0 (ix2 k (0 : Fin 1))))

/-- THE STORED VALUE AT (n, c), over the hidden part v37. -/
theorem pay1_apply (v20 : FVec Ideal S1024x1 .f32) (v22 : FVec Ideal S1024x1024 .bf16) (v36 : FVec Ideal S128x64 .bf16)
    (v37 : FVec Ideal S1024x128 .bf16) (v45 : Vec Ideal S1x64 .f32) (n : Fin 1024) (c : Fin 64) :
    k0_pay1 (F := Ideal) v20 v22 v36 v37 (constant S1024x64 .f32 0x00000000#32) v45 (ix2 n c)
      = (∑ k : Fin 1024, v22 (ix2 n k)
            * ((∑ j : Fin 128, v37 (ix2 k j) * v36 (ix2 j c)) * v20 (ix2 k (0 : Fin 1))))
          * v20 (ix2 n (0 : Fin 1)) + v45 (ix2 (0 : Fin 1) c) := by
  unfold k0_pay1
  simp only [shapeCast_self]
  -- the outer pointwise operations at (n, c)
  simp only [addf, mulf, Ideal.addf_def, Ideal.mulf_def]
  -- B times the scaled table, the column q broadcast along a row, the bias row broadcast down
  rw [matmul_K1024N64_apply, broadcastTo_a1_ab_apply, broadcastTo_1b_ab_apply]
  refine congrArg (fun s => s * v20 (ix2 n (0 : Fin 1)) + v45 (ix2 (0 : Fin 1) c)) (Finset.sum_congr rfl fun k _ => ?_)
  refine congrArg (v22 (ix2 n k) * ·) ?_
  -- the scaled table at (k, c): the hidden part times W2, times q(k)
  simp only [truncf, mulf, Ideal.truncf_def, Ideal.mulf_def]
  rw [matmul_K128N64_apply, broadcastTo_a1_ab_apply]

end Cert.KernelIdeal.Payload

end
-- ==== Proof.KernelValue.lean ====
/-
  The kernel's result array as a function of the arguments.

  The program runs its host operations (the count matrix B and the inverse root degrees q out of the edge array; the
  labels, the biases and q re-laid as columns and rows; the weight matrices rounded to bf16) and then ONE pallas_call
  over a grid of one point, every window's block its whole array. So the result array after the run is what the body
  stores, as one function of the window arrays (the body's payload composition), and the window arrays are the host
  operations' terms of the arguments. At the ideal values, index by index, that is Spec.lean's kernel form of the network.
-/
import proofs.«409722_j76278619177162_3_alg».proof.Proof.Gen.KernelIdeal.Value
import proofs.«409722_j76278619177162_3_alg».proof.Proof.KernelHost
import proofs.«409722_j76278619177162_3_alg».proof.Proof.KernelGraph
import proofs.«409722_j76278619177162_3_alg».proof.Proof.KernelLayout
import proofs.«409722_j76278619177162_3_alg».proof.Proof.KernelPayload
import proofs.«409722_j76278619177162_3_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.KernelValue

open Cert.KernelIdeal Cert.KernelIdeal.Gen Cert.KernelIdeal.KernelHost
open Idealize.ShloMosaic Idealize.ShloMosaic.TcCoe Idealize.SL.Sem Idealize.ShloMosaic.StableHlo
open Idealize.ShloMosaic.ValueIdx Cert.Gcn

section Generic

variable {F : FTy → Type} [FloatOps F]
variable (m : (ℓ : Loc nD τ sig) → Buf (Elt F) ℓ)

/-! ## The window arrays as the region finds them: the host operations' terms of the arguments -/

/-- The region-entry contents, spelt as the fold over the two stretches of host operations. -/
theorem V_open (c : Dev nD) (b : Ref sig .tc) :
    V m c b = StableHlo.after (List.flatten [hostOps0, hostOps0_1]) (fun b => m (c, b)) (Proc.devRef .tc b) := rfl

/-- … and as the second stretch run after the first. -/
theorem V_split (c : Dev nD) (b : Ref sig .tc) :
    V m c b = StableHlo.after hostOps0_1 (StableHlo.after hostOps0 (fun b => m (c, b))) (Proc.devRef .tc b) := by
  rw [V_open, List.flatten_cons, List.flatten_cons, List.flatten_nil, List.append_nil, StableHlo.after_append]

set_option maxHeartbeats 1000000 in
/-- The first stretch of host operations leaves argument 0 as launched. -/
theorem W_arg0 (c : Dev nD) :
    StableHlo.after hostOps0 (fun b => m (c, b)) (Proc.devRef .tc main_arg0) = m ((c : Thread nD τ).loc main_arg0) := by
  simp only [hostOps0]
  after_results
  all_goals rfl

set_option maxHeartbeats 1000000 in
/-- The first stretch of host operations leaves argument 3 as launched. -/
theorem W_arg3 (c : Dev nD) :
    StableHlo.after hostOps0 (fun b => m (c, b)) (Proc.devRef .tc main_arg3) = m ((c : Thread nD τ).loc main_arg3) := by
  simp only [hostOps0]
  after_results
  all_goals rfl

set_option maxHeartbeats 1000000 in
/-- The first stretch of host operations leaves argument 4 as launched. -/
theorem W_arg4 (c : Dev nD) :
    StableHlo.after hostOps0 (fun b => m (c, b)) (Proc.devRef .tc main_arg4) = m ((c : Thread nD τ).loc main_arg4) := by
  simp only [hostOps0]
  after_results
  all_goals rfl

set_option maxHeartbeats 1000000 in
/-- The first stretch of host operations leaves argument 5 as launched. -/
theorem W_arg5 (c : Dev nD) :
    StableHlo.after hostOps0 (fun b => m (c, b)) (Proc.devRef .tc main_arg5) = m ((c : Thread nD τ).loc main_arg5) := by
  simp only [hostOps0]
  after_results
  all_goals rfl

set_option maxHeartbeats 1000000 in
/-- The first stretch of host operations leaves argument 6 as launched. -/
theorem W_arg6 (c : Dev nD) :
    StableHlo.after hostOps0 (fun b => m (c, b)) (Proc.devRef .tc main_arg6) = m ((c : Thread nD τ).loc main_arg6) := by
  simp only [hostOps0]
  after_results
  all_goals rfl

set_option maxHeartbeats 2000000 in
/-- The first stretch leaves the count matrix in the scatter's buffer. -/
theorem W_adjf (c : Dev nD) :
    StableHlo.after hostOps0 (fun b => m (c, b)) (Proc.devRef .tc main_call0_v22) = kAdj (F := F) (m ((c : Thread nD τ).loc main_arg1)) := by
  simp only [hostOps0]
  after_results
  all_goals rfl

set_option maxHeartbeats 4000000 in
/-- … the count matrix, rounded to bf16, in its first result buffer. -/
theorem W_adj (c : Dev nD) :
    StableHlo.after hostOps0 (fun b => m (c, b)) (Proc.devRef .tc main_v0_0)
      = truncf .bf16 (kAdj (F := F) (m ((c : Thread nD τ).loc main_arg1))) bitsLt_bf16_f32 := by
  rw [← W_adjf m c]
  simp only [hostOps0]
  after_results
  all_goals rfl

set_option maxHeartbeats 4000000 in
/-- … its row sums in the reduction's buffer. -/
theorem W_deg (c : Dev nD) :
    StableHlo.after hostOps0 (fun b => m (c, b)) (Proc.devRef .tc main_call0_v23) = kDeg (F := F) (m ((c : Thread nD τ).loc main_arg1)) := by
  unfold kDeg
  rw [← W_adjf m c]
  simp only [hostOps0]
  after_results
  all_goals rfl

set_option maxHeartbeats 6000000 in
/-- … and the inverse root degrees in its second result buffer. -/
theorem W_dinv (c : Dev nD) :
    StableHlo.after hostOps0 (fun b => m (c, b)) (Proc.devRef .tc main_v0_1) = kDinv (F := F) (m ((c : Thread nD τ).loc main_arg1)) := by
  unfold kDinv
  rw [← W_deg m c]
  simp only [hostOps0]
  after_results
  all_goals rfl

/-- The labels as a column. -/
theorem V_y (c : Dev nD) : V m c main_call1_v0 = shapeCast _ (m ((c : Thread nD τ).loc main_arg0)) shapeCasts_S1024_S1024x1 := by
  rw [V_split, ← W_arg0 m c]
  generalize StableHlo.after hostOps0 (fun b => m (c, b)) = W
  simp only [hostOps0_1]
  after_results
  all_goals rfl

/-- The first weight matrix, rounded to bf16. -/
theorem V_W1 (c : Dev nD) : V m c main_call1_v1 = truncf .bf16 (m ((c : Thread nD τ).loc main_arg3)) bitsLt_bf16_f32 := by
  rw [V_split, ← W_arg3 m c]
  generalize StableHlo.after hostOps0 (fun b => m (c, b)) = W
  simp only [hostOps0_1]
  after_results
  all_goals rfl

/-- The second weight matrix, rounded to bf16. -/
theorem V_W2 (c : Dev nD) : V m c main_call1_v2 = truncf .bf16 (m ((c : Thread nD τ).loc main_arg5)) bitsLt_bf16_f32 := by
  rw [V_split, ← W_arg5 m c]
  generalize StableHlo.after hostOps0 (fun b => m (c, b)) = W
  simp only [hostOps0_1]
  after_results
  all_goals rfl

/-- The first bias as a row. -/
theorem V_b1 (c : Dev nD) : V m c main_call1_v3 = shapeCast _ (m ((c : Thread nD τ).loc main_arg4)) shapeCasts_S128_S1x128 := by
  rw [V_split, ← W_arg4 m c]
  generalize StableHlo.after hostOps0 (fun b => m (c, b)) = W
  simp only [hostOps0_1]
  after_results
  all_goals rfl

/-- The second bias as a row. -/
theorem V_b2 (c : Dev nD) : V m c main_call1_v4 = shapeCast _ (m ((c : Thread nD τ).loc main_arg6)) shapeCasts_S64_S1x64 := by
  rw [V_split, ← W_arg6 m c]
  generalize StableHlo.after hostOps0 (fun b => m (c, b)) = W
  simp only [hostOps0_1]
  after_results
  all_goals rfl

/-- The count matrix: the second stretch does not write it. -/
theorem V_adj (c : Dev nD) : V m c main_v0_0 = truncf .bf16 (kAdj (F := F) (m ((c : Thread nD τ).loc main_arg1))) bitsLt_bf16_f32 := by
  rw [V_split, ← W_adj m c]
  generalize StableHlo.after hostOps0 (fun b => m (c, b)) = W
  simp only [hostOps0_1]
  after_results
  all_goals rfl

/-- The inverse root degrees as a column. -/
theorem V_dinv (c : Dev nD) : V m c main_call1_v5 = shapeCast _ (kDinv (F := F) (m ((c : Thread nD τ).loc main_arg1))) shapeCasts_S1024_S1024x1 := by
  rw [V_split, ← W_dinv m c]
  generalize StableHlo.after hostOps0 (fun b => m (c, b)) = W
  simp only [hostOps0_1]
  after_results
  all_goals rfl

/-! ## The one grid point's blocks are the whole arrays -/

theorem hz : (![0, 0] : Fin 2 → Nat) = fun _ => 0 := funext fun a => by fin_cases a <;> rfl

/-- The printed index maps, decided over the grid's one point: every window's block index is (0, 0). -/
theorem idx_zero : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Window 0's one block is its whole array. -/
theorem iblk0 (c : Dev nD) (t : Fin cfg0.N) : (iblk m c 0 t : Vec F S1024x1 .i32) = V m c main_call1_v0 := by
  obtain ⟨h00, h01, h10, h11, h20, h21, h30, h31, h40, h41, h50, h51, h60, h61, h70, h71, h80, h81⟩ := idx_zero t
  funext y
  show V m c main_call1_v0 (((cfg0.win 0).blk t).view.emb y) = V m c main_call1_v0 y
  congr 1
  funext a; apply Fin.ext
  match a with
  | ⟨0, _⟩ => show win0_0.index t (0 : Fin 2) * 1024 + 1 * (y 0).val = (y 0).val; omega
  | ⟨1, _⟩ => show win0_0.index t (1 : Fin 2) * 1 + 1 * (y 1).val = (y 1).val; omega

/-- Window 1's one block is its whole array. -/
theorem iblk1 (c : Dev nD) (t : Fin cfg0.N) : (iblk m c 1 t : Vec F S1024x64 .f32) = V m c main_arg2 := by
  obtain ⟨h00, h01, h10, h11, h20, h21, h30, h31, h40, h41, h50, h51, h60, h61, h70, h71, h80, h81⟩ := idx_zero t
  funext y
  show V m c main_arg2 (((cfg0.win 1).blk t).view.emb y) = V m c main_arg2 y
  congr 1
  funext a; apply Fin.ext
  match a with
  | ⟨0, _⟩ => show win0_1.index t (0 : Fin 2) * 1024 + 1 * (y 0).val = (y 0).val; omega
  | ⟨1, _⟩ => show win0_1.index t (1 : Fin 2) * 64 + 1 * (y 1).val = (y 1).val; omega

/-- Window 2's one block is its whole array. -/
theorem iblk2 (c : Dev nD) (t : Fin cfg0.N) : (iblk m c 2 t : Vec F S64x128 .bf16) = V m c main_call1_v1 := by
  obtain ⟨h00, h01, h10, h11, h20, h21, h30, h31, h40, h41, h50, h51, h60, h61, h70, h71, h80, h81⟩ := idx_zero t
  funext y
  show V m c main_call1_v1 (((cfg0.win 2).blk t).view.emb y) = V m c main_call1_v1 y
  congr 1
  funext a; apply Fin.ext
  match a with
  | ⟨0, _⟩ => show win0_2.index t (0 : Fin 2) * 64 + 1 * (y 0).val = (y 0).val; omega
  | ⟨1, _⟩ => show win0_2.index t (1 : Fin 2) * 128 + 1 * (y 1).val = (y 1).val; omega

/-- Window 3's one block is its whole array. -/
theorem iblk3 (c : Dev nD) (t : Fin cfg0.N) : (iblk m c 3 t : Vec F S1x128 .f32) = V m c main_call1_v3 := by
  obtain ⟨h00, h01, h10, h11, h20, h21, h30, h31, h40, h41, h50, h51, h60, h61, h70, h71, h80, h81⟩ := idx_zero t
  funext y
  show V m c main_call1_v3 (((cfg0.win 3).blk t).view.emb y) = V m c main_call1_v3 y
  congr 1
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's one block is its whole array. -/
theorem iblk4 (c : Dev nD) (t : Fin cfg0.N) : (iblk m c 4 t : Vec F S128x64 .bf16) = V m c main_call1_v2 := by
  obtain ⟨h00, h01, h10, h11, h20, h21, h30, h31, h40, h41, h50, h51, h60, h61, h70, h71, h80, h81⟩ := idx_zero t
  funext y
  show V m c main_call1_v2 (((cfg0.win 4).blk t).view.emb y) = V m c main_call1_v2 y
  congr 1
  funext a; apply Fin.ext
  match a with
  | ⟨0, _⟩ => show win0_4.index t (0 : Fin 2) * 128 + 1 * (y 0).val = (y 0).val; omega
  | ⟨1, _⟩ => show win0_4.index t (1 : Fin 2) * 64 + 1 * (y 1).val = (y 1).val; omega

/-- Window 5's one block is its whole array. -/
theorem iblk5 (c : Dev nD) (t : Fin cfg0.N) : (iblk m c 5 t : Vec F S1x64 .f32) = V m c main_call1_v4 := by
  obtain ⟨h00, h01, h10, h11, h20, h21, h30, h31, h40, h41, h50, h51, h60, h61, h70, h71, h80, h81⟩ := idx_zero t
  funext y
  show V m c main_call1_v4 (((cfg0.win 5).blk t).view.emb y) = V m c main_call1_v4 y
  congr 1
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Window 6's one block is its whole array. -/
theorem iblk6 (c : Dev nD) (t : Fin cfg0.N) : (iblk m c 6 t : Vec F S1024x1024 .bf16) = V m c main_v0_0 := by
  obtain ⟨h00, h01, h10, h11, h20, h21, h30, h31, h40, h41, h50, h51, h60, h61, h70, h71, h80, h81⟩ := idx_zero t
  funext y
  show V m c main_v0_0 (((cfg0.win 6).blk t).view.emb y) = V m c main_v0_0 y
  congr 1
  funext a; apply Fin.ext
  match a with
  | ⟨0, _⟩ => show win0_6.index t (0 : Fin 2) * 1024 + 1 * (y 0).val = (y 0).val; omega
  | ⟨1, _⟩ => show win0_6.index t (1 : Fin 2) * 1024 + 1 * (y 1).val = (y 1).val; omega

/-- Window 7's one block is its whole array. -/
theorem iblk7 (c : Dev nD) (t : Fin cfg0.N) : (iblk m c 7 t : Vec F S1024x1 .f32) = V m c main_call1_v5 := by
  obtain ⟨h00, h01, h10, h11, h20, h21, h30, h31, h40, h41, h50, h51, h60, h61, h70, h71, h80, h81⟩ := idx_zero t
  funext y
  show V m c main_call1_v5 (((cfg0.win 7).blk t).view.emb y) = V m c main_call1_v5 y
  congr 1
  funext a; apply Fin.ext
  match a with
  | ⟨0, _⟩ => show win0_7.index t (0 : Fin 2) * 1024 + 1 * (y 0).val = (y 0).val; omega
  | ⟨1, _⟩ => show win0_7.index t (1 : Fin 2) * 1 + 1 * (y 1).val = (y 1).val; omega

/-! ## What the body stores, as one function of the window arrays -/

/-- The body's one store over its loads: the stored value's arithmetic over the hidden part's. -/
def Gk (a0 : Vec F S1024x1 .i32) (a1 : Vec F S1024x64 .f32) (a2 : Vec F S64x128 .bf16) (a3 : Vec F S1x128 .f32)
    (a4 : Vec F S128x64 .bf16) (a5 : Vec F S1x64 .f32) (a6 : Vec F S1024x1024 .bf16) (a7 : Vec F S1024x1 .f32) :
    Vec F S1024x64 .f32 :=
  k0_pay1 (k0_pay2 a7) (k0_pay3 a6) (k0_pay4 a4) (k0_pay5 a0 a1 a2 a7 a6 a3) (constant S1024x64 .f32 0x00000000#32) a5

/-- The output buffer after the body: its one store covers it, and every load is a whole buffer. -/
theorem out0_8_eq (x0 : Vec F S1024x1 .i32) (x1 : Vec F S1024x64 .f32) (x2 : Vec F S64x128 .bf16) (x3 : Vec F S1x128 .f32)
    (x4 : Vec F S128x64 .bf16) (x5 : Vec F S1x64 .f32) (x6 : Vec F S1024x1024 .bf16) (x7 : Vec F S1024x1 .f32) :
    out0_8 x0 x1 x2 x3 x4 x5 x6 x7 = Gk x0 x1 x2 x3 x4 x5 x6 x7 := by
  unfold out0_8 Gk
  rw [View.canon_unit_zero hz]
  simp only [View.ld_unit_zero (S := S1024x1) hz, View.ld_unit_zero (S := S1024x64) hz, View.ld_unit_zero (S := S64x128) hz,
    View.ld_unit_zero (S := S1x128) hz, View.ld_unit_zero (S := S128x64) hz, View.ld_unit_zero (S := S1x64) hz,
    View.ld_unit_zero (S := S1024x1024) hz]

/-- WHAT THE ONE POINT WRITES BACK is the whole of that function of the window arrays as the region finds them. -/
theorem flushed8_eq (c : Dev nD) (t : Fin cfg0.N) :
    (dats m 0 c).flushed 8 t = ((cfg0.win 8).blk t).view.read (Elt F)
      (Gk (V m c main_call1_v0) (V m c main_arg2) (V m c main_call1_v1) (V m c main_call1_v3) (V m c main_call1_v2)
        (V m c main_call1_v4) (V m c main_v0_0) (V m c main_call1_v5)) := by
  rw [Cert.KernelIdeal.Value.flushed8 m c t, out0_8_eq, iblk0 m c t, iblk1 m c t, iblk2 m c t, iblk3 m c t, iblk4 m c t,
    iblk5 m c t, iblk6 m c t, iblk7 m c t]
  obtain ⟨h00, h01, h10, h11, h20, h21, h30, h31, h40, h41, h50, h51, h60, h61, h70, h71, h80, h81⟩ := idx_zero t
  funext j
  show Gk (V m c main_call1_v0) (V m c main_arg2) (V m c main_call1_v1) (V m c main_call1_v3) (V m c main_call1_v2)
        (V m c main_call1_v4) (V m c main_v0_0) (V m c main_call1_v5) j
      = Gk (V m c main_call1_v0) (V m c main_arg2) (V m c main_call1_v1) (V m c main_call1_v3) (V m c main_call1_v2)
        (V m c main_call1_v4) (V m c main_v0_0) (V m c main_call1_v5) (((cfg0.win 8).blk t).view.emb j)
  congr 1
  funext a; apply Fin.ext
  match a with
  | ⟨0, _⟩ => show (j 0).val = win0_8.index t (0 : Fin 2) * 1024 + 1 * (j 0).val; omega
  | ⟨1, _⟩ => show (j 1).val = win0_8.index t (1 : Fin 2) * 64 + 1 * (j 1).val; omega

/-- An index of the result array is in the point's block iff each coordinate is in the block's range on its axis. -/
theorem mem_blk8 (t : Fin cfg0.N) (i : S1024x64.Idx) :
    i ∈ ((cfg0.win 8).blk t).view.set ↔ ∀ a : Fin 2, win0_8.index t a * S1024x64.size a ≤ (i a).val ∧ (i a).val < win0_8.index t a * S1024x64.size a + S1024x64.size a := by
  show i ∈ ((View.whole main_v1).slice (win0_8.rect t)).set ↔ _
  rw [View.set_slice_whole, Rect.mem_set_unit]
  exact Iff.rfl

/-- The one block covers the result array. -/
theorem cover8 (i : S1024x64.Idx) : ∃ t : Fin cfg0.N, (cfg0.win 8).flush t = true ∧ i ∈ ((cfg0.win 8).blk t).view.set := by
  refine ⟨⟨0, by decide⟩, flush0_8 _, ?_⟩
  obtain ⟨h00, h01, h10, h11, h20, h21, h30, h31, h40, h41, h50, h51, h60, h61, h70, h71, h80, h81⟩ := idx_zero ⟨0, by decide⟩
  rw [mem_blk8]
  intro a
  match a with
  | ⟨0, _⟩ => show win0_8.index _ (0 : Fin 2) * 1024 ≤ (i 0).val ∧ (i 0).val < win0_8.index _ (0 : Fin 2) * 1024 + 1024; have := (i 0).isLt; have h : (i 0).val < 1024 := this; omega
  | ⟨1, _⟩ => show win0_8.index _ (1 : Fin 2) * 64 ≤ (i 1).val ∧ (i 1).val < win0_8.index _ (1 : Fin 2) * 64 + 64; have := (i 1).isLt; have h : (i 1).val < 64 := this; omega

/-- THE RESULT ARRAY after the run: that function of the window arrays. -/
theorem final8 (c : Dev nD) : (dats m 0 c).arrAt 8 cfg0.N
    = Gk (V m c main_call1_v0) (V m c main_arg2) (V m c main_call1_v1) (V m c main_call1_v3) (V m c main_call1_v2)
        (V m c main_call1_v4) (V m c main_v0_0) (V m c main_call1_v5) :=
  (dats m 0 c).arrAt_eq_of_cover 8 _ (fun t _ => flushed8_eq m c t) cover8

end Generic

/-! ## The result array at the ideal values, index by index -/

section AtIdeal

variable (mI : (ℓ : Loc nD τ sig) → Buf (Elt Ideal) ℓ)

/-- The seven argument arrays of device c, at their literal types. -/
abbrev argY (c : Dev nD) : IVec S1024 32 := mI ((c : Thread nD τ).loc main_arg0)
abbrev argEi (c : Dev nD) : IVec S2x1047552 32 := mI ((c : Thread nD τ).loc main_arg1)
abbrev argEmb (c : Dev nD) : FVec Ideal S1024x64 .f32 := mI ((c : Thread nD τ).loc main_arg2)
abbrev argW1 (c : Dev nD) : FVec Ideal S64x128 .f32 := mI ((c : Thread nD τ).loc main_arg3)
abbrev argB1 (c : Dev nD) : FVec Ideal S128 .f32 := mI ((c : Thread nD τ).loc main_arg4)
abbrev argW2 (c : Dev nD) : FVec Ideal S128x64 .f32 := mI ((c : Thread nD τ).loc main_arg5)
abbrev argB2 (c : Dev nD) : FVec Ideal S64 .f32 := mI ((c : Thread nD τ).loc main_arg6)

/-- THE KERNEL'S RESULT AT (n, k) is the kernel form of the network (Spec.lean), when every edge word names a node. -/
theorem kernel_apply (c : Dev nD)
    (hei : ∀ i, 0 ≤ (argEi mI c i).toInt ∧ (argEi mI c i).toInt < 1024) (n : Fin 1024) (k : Fin 64) :
    (dats mI 0 c).arrAt 8 cfg0.N (ix2 n k)
      = outK (argY mI c) (argEi mI c) (argEmb mI c) (argW1 mI c) (argB1 mI c) (argW2 mI c) (argB2 mI c) n k := by
  rw [final8, V_y, V_main_arg2, V_W1, V_b1, V_W2, V_b2, V_adj, V_dinv]
  unfold Gk
  rw [Payload.pay1_apply]
  simp only [Payload.pay2_eq, Payload.pay3_eq, Payload.pay4_eq, Payload.pay5_apply, KernelLayout.col1024_apply,
    KernelLayout.row128_apply, KernelLayout.row64_apply, KernelLayout.truncf_apply,
    KernelGraph.kAdj_apply _ hei, KernelGraph.kDinv_apply _ hei]
  rfl

/-- The kernel's run read: the result array is the kernel form of the network of the arguments, the arguments unchanged. -/
theorem run (ρ : Dev nD → PrngReg)
    (hei : ∀ (c : Dev nD) i, 0 ≤ (argEi mI c i).toInt ∧ (argEi mI c i).toInt < 1024) :
    θ_run defs (onTc (τ := τ) (main (F := Ideal))) ⟨mI, fun _ => 0, ρ⟩ fun r => ∀ c : Dev nD,
      r.2.mem ((c : Thread nD τ).loc main_v1)
        = (fun i : S1024x64.Idx => outK (argY mI c) (argEi mI c) (argEmb mI c) (argW1 mI c) (argB1 mI c) (argW2 mI c) (argB2 mI c) (i 0) (i 1))
      ∧ r.2.mem ((c : Thread nD τ).loc main_arg0) = mI ((c : Thread nD τ).loc main_arg0)
      ∧ r.2.mem ((c : Thread nD τ).loc main_arg1) = mI ((c : Thread nD τ).loc main_arg1)
      ∧ r.2.mem ((c : Thread nD τ).loc main_arg2) = mI ((c : Thread nD τ).loc main_arg2)
      ∧ r.2.mem ((c : Thread nD τ).loc main_arg3) = mI ((c : Thread nD τ).loc main_arg3)
      ∧ r.2.mem ((c : Thread nD τ).loc main_arg4) = mI ((c : Thread nD τ).loc main_arg4)
      ∧ r.2.mem ((c : Thread nD τ).loc main_arg5) = mI ((c : Thread nD τ).loc main_arg5)
      ∧ r.2.mem ((c : Thread nD τ).loc main_arg6) = mI ((c : Thread nD τ).loc main_arg6) :=
  (θ_run defs _ _).mono (fun r h c => ⟨(h c).1.trans (funext fun i => by
      obtain ⟨n, k, rfl⟩ : ∃ (n : Fin 1024) (k : Fin 64), i = ix2 n k := ⟨i 0, i 1, eq_ix2 i⟩
      exact kernel_apply mI c (hei c) n k), (h c).2⟩)
    (Cert.KernelIdeal.Value.run_blocks mI ρ)

end AtIdeal

end Cert.KernelIdeal.KernelValue

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.RefGraph.lean ====
/-
  The graph part of the reference's @main read at an index: the two rows of the edge array with the self loops
  appended; the columns of words the gathers (wrapped) and the segment sums (raw) read; the in-degrees (a segment sum of
  ones over the destinations); their inverse roots where positive; the edge norms (the inverse root degrees gathered
  at the source and at the destination, multiplied).
-/
import proofs.«409722_j76278619177162_3_alg».proof.Proof.RefRead
import proofs.«409722_j76278619177162_3_alg».proof.Proof.Spec
import proofs.«409722_j76278619177162_3_alg».proof.Proof.Nodes
import proofs.«409722_j76278619177162_3_alg».proof.Proof.Algebra
import proofs.«409722_j76278619177162_3_alg».proof.Proof.LibRowOps
import proofs.«409722_j76278619177162_3_alg».proof.Proof.LibGraphOps
import Idealize.ShloMosaic.PureOps.Ideal.Laws

set_option maxRecDepth 16384

noncomputable section

namespace Cert.ReferenceIdeal.RefGraph

open Cert.ReferenceIdeal Cert.ReferenceIdeal.Gen Cert.ReferenceIdeal.Read
open Idealize.ShloMosaic Idealize.ShloMosaic.ValueIdx Cert.Gcn

variable (x1 : (⟨S2x1047552, .i32⟩ : BufTy).Contents (Elt Ideal))

/-- The source words with the self loops appended. -/
theorem src_word (e : Fin 1048576) : val_main_v5 (F := Ideal) x1 (ix1 e) = srcW x1 e := by
  unfold val_main_v5
  rw [GraphOps.concat_vec_apply (val_main_v1 (F := Ideal) x1) (val_main_v4 (F := Ideal))
    concatenates_S1047552_S1024_S1048576_d0 (by norm_num) e]
  unfold srcW
  split
  · rename_i h
    rw [val_main_v1_apply, val_main_v0_apply]
    congr 1
    funext a
    match a with
    | ⟨0, _⟩ => exact Fin.ext rfl
    | ⟨1, _⟩ => exact Fin.ext (Nat.mod_eq_of_lt h)
  · rw [val_main_v4_apply]

/-- The destination words with the self loops appended. -/
theorem dst_word (e : Fin 1048576) : val_main_v6 (F := Ideal) x1 (ix1 e) = dstW x1 e := by
  unfold val_main_v6
  rw [GraphOps.concat_vec_apply (val_main_v3 (F := Ideal) x1) (val_main_v4 (F := Ideal))
    concatenates_S1047552_S1024_S1048576_d0 (by norm_num) e]
  unfold dstW
  split
  · rename_i h
    rw [val_main_v3_apply, val_main_v2_apply]
    congr 1
    funext a
    match a with
    | ⟨0, _⟩ => exact Fin.ext rfl
    | ⟨1, _⟩ => exact Fin.ext (Nat.mod_eq_of_lt h)
  · rw [val_main_v4_apply]

/-- The column of source words the first layer's row gather reads: wrapped, which leaves a word in range alone. -/
theorem srcCol43 (hei : ∀ i, 0 ≤ (x1 i).toInt ∧ (x1 i).toInt < 1024) (e : Fin 1048576) :
    val_main_v43 (F := Ideal) x1 (ix2 e (0 : Fin 1)) = srcW x1 e := by
  rw [val_main_v43_apply]
  have hi : idx_main_v43 (ix2 e (0 : Fin 1)) = ix1 e := by
    funext a
    match a with
    | ⟨0, _⟩ => rfl
  rw [hi, val_main_v42_apply, val_main_v39_apply, val_main_v41_apply, val_main_v38_apply, val_main_v40_apply,
    val_main_c_8_apply, val_main_c_9_apply, src_word]
  exact GraphOps.wrap_of_nonneg _ (srcW_inrange x1 hei e).1

/-- The same for the second layer's row gather. -/
theorem srcCol61 (hei : ∀ i, 0 ≤ (x1 i).toInt ∧ (x1 i).toInt < 1024) (e : Fin 1048576) :
    val_main_v61 (F := Ideal) x1 (ix2 e (0 : Fin 1)) = srcW x1 e := by
  rw [val_main_v61_apply]
  have hi : idx_main_v61 (ix2 e (0 : Fin 1)) = ix1 e := by
    funext a
    match a with
    | ⟨0, _⟩ => rfl
  rw [hi, val_main_v60_apply, val_main_v57_apply, val_main_v59_apply, val_main_v56_apply, val_main_v58_apply,
    val_main_c_11_apply, val_main_c_12_apply, src_word]
  exact GraphOps.wrap_of_nonneg _ (srcW_inrange x1 hei e).1

/-- The column of destination words the first layer's segment sum reads: the raw words. -/
theorem dstCol49 (e : Fin 1048576) : val_main_v49 (F := Ideal) x1 (ix2 e (0 : Fin 1)) = dstW x1 e := by
  rw [val_main_v49_apply]
  have hi : idx_main_v49 (ix2 e (0 : Fin 1)) = ix1 e := by
    funext a
    match a with
    | ⟨0, _⟩ => rfl
  rw [hi, dst_word]

/-- The same for the second layer's segment sum. -/
theorem dstCol67 (e : Fin 1048576) : val_main_v67 (F := Ideal) x1 (ix2 e (0 : Fin 1)) = dstW x1 e := by
  rw [val_main_v67_apply]
  have hi : idx_main_v67 (ix2 e (0 : Fin 1)) = ix1 e := by
    funext a
    match a with
    | ⟨0, _⟩ => rfl
  rw [hi, dst_word]

/-- The column of destination words the degree count reads: the raw words. -/
theorem dstCol9 (e : Fin 1048576) : val_main_v9 (F := Ideal) x1 (ix2 e (0 : Fin 1)) = dstW x1 e := by
  rw [val_main_v9_apply]
  have hi : idx_main_v9 (ix2 e (0 : Fin 1)) = ix1 e := by
    funext a
    match a with
    | ⟨0, _⟩ => rfl
  rw [hi, dst_word]

/-- The dimension numbers of the degree count's scatter are those of a scatter into a vector. -/
theorem scatterRec_eq : scatter_S1024_S1048576x1_S1048576_n_0_0_1
      = RowOps.vecScatter 1024 1048576 Facts₀.scatter_S1024_S1048576x1_S1048576_n_0_0_1_wf := rfl

/-- The degree count as the exact accumulating scatter of the ones into the zeros. -/
theorem v10_eq : val_main_v10 (F := Ideal) x1
    = Ideal.hostScatterAdd (RowOps.vecScatter 1024 1048576 Facts₀.scatter_S1024_S1048576x1_S1048576_n_0_0_1_wf)
        (val_main_v8 (F := Ideal)) (val_main_v9 (F := Ideal) x1) (val_main_v7 (F := Ideal)) := by
  unfold val_main_v10
  rw [scatterRec_eq]
  rfl

/-- The degree count at node n: the zero plus the ones over the positions whose destination word is n. -/
theorem v10_apply (n : Fin 1024) : val_main_v10 (F := Ideal) x1 (ix1 n)
    = val_main_v8 (F := Ideal) (ix1 n) + ∑ e ∈ Finset.univ.filter (fun e : Fin 1048576 =>
        (val_main_v9 (F := Ideal) x1 (ix2 e (0 : Fin 1))).toInt = (n.val : ℤ)), val_main_v7 (F := Ideal) (ix1 e) := by
  rw [v10_eq]
  exact RowOps.vecScatterAdd_apply (w := 32) Facts₀.scatter_S1024_S1048576x1_S1048576_n_0_0_1_wf
    (val_main_v8 (F := Ideal)) (val_main_v9 (F := Ideal) x1) (val_main_v7 (F := Ideal)) n

/-- The in-degrees: the segment sum of ones over the destinations. -/
theorem deg_apply (hei : ∀ i, 0 ≤ (x1 i).toInt ∧ (x1 i).toInt < 1024) (n : Fin 1024) :
    val_main_v10 (F := Ideal) x1 (ix1 n) = deg (dst x1) n := by
  rw [v10_apply, val_main_v8_apply, val_main_cst_0_apply, Ideal.ofBits_def, Ideal.ofBits_zero_f32, zero_add]
  unfold deg
  have hf : Finset.univ.filter (fun e : Fin 1048576 =>
        (val_main_v9 (F := Ideal) x1 (ix2 e (0 : Fin 1))).toInt = (n.val : ℤ))
      = Finset.univ.filter (fun e : Fin 1048576 => dst x1 e = n) := by
    apply Finset.filter_congr
    intro e _
    rw [dstCol9]
    exact toInt_eq_iff_node _ (dstW_inrange x1 hei e).1 (dstW_inrange x1 hei e).2 n
  rw [hf]
  apply Finset.sum_congr rfl
  intro e _
  rw [val_main_v7_apply, val_main_cst_apply, Ideal.ofBits_def, ofBits_one_f32]

/-- The inverse root degrees. -/
theorem dinv_apply (hei : ∀ i, 0 ≤ (x1 i).toInt ∧ (x1 i).toInt < 1024) (n : Fin 1024) :
    val_main_v14 (F := Ideal) x1 (ix1 n) = q x1 n := by
  rw [val_main_v14_apply, val_main_v12_apply, val_main_v13_apply, val_main_call0_v1_apply, val_main_call0_v0_apply,
    val_main_cst_2_apply, val_main_v11_apply, val_main_cst_1_apply, deg_apply x1 hei,
    Ideal.ofBits_def, Ideal.ofBits_zero_f32, Ideal.hostUnary_rsqrt_def, Ideal.cmpf_def]
  unfold q dinv Scalar.select Ideal.cmp
  by_cases h : 0 < deg (dst x1) n
  · rw [if_pos h, if_pos]
    simp [h]
  · rw [if_neg h, if_neg]
    simp [h]

/-- The wrapped column of source words the norm's first gather reads. -/
theorem srcCol20 (hei : ∀ i, 0 ≤ (x1 i).toInt ∧ (x1 i).toInt < 1024) (e : Fin 1048576) :
    val_main_v20 (F := Ideal) x1 (ix2 e (0 : Fin 1)) = srcW x1 e := by
  rw [val_main_v20_apply]
  have hi : idx_main_v20 (ix2 e (0 : Fin 1)) = ix1 e := by
    funext a
    match a with
    | ⟨0, _⟩ => rfl
  rw [hi, val_main_v19_apply, val_main_v16_apply, val_main_v18_apply, val_main_v15_apply, val_main_v17_apply,
    val_main_c_apply, val_main_c_3_apply, src_word]
  exact GraphOps.wrap_of_nonneg _ (srcW_inrange x1 hei e).1

/-- The wrapped column of destination words the norm's second gather reads. -/
theorem dstCol27 (hei : ∀ i, 0 ≤ (x1 i).toInt ∧ (x1 i).toInt < 1024) (e : Fin 1048576) :
    val_main_v27 (F := Ideal) x1 (ix2 e (0 : Fin 1)) = dstW x1 e := by
  rw [val_main_v27_apply]
  have hi : idx_main_v27 (ix2 e (0 : Fin 1)) = ix1 e := by
    funext a
    match a with
    | ⟨0, _⟩ => rfl
  rw [hi, val_main_v26_apply, val_main_v23_apply, val_main_v25_apply, val_main_v22_apply, val_main_v24_apply,
    val_main_c_4_apply, val_main_c_5_apply, dst_word]
  exact GraphOps.wrap_of_nonneg _ (dstW_inrange x1 hei e).1

/-- The dimension numbers of the norm's gathers are those of a gather out of a vector. -/
theorem gatherRec_eq : gather_S1024_S1048576x1_S1048576_n_0_n_n_0_1_1
      = GraphOps.vecGather 1024 1048576 Facts₀.gather_S1024_S1048576x1_S1048576_n_0_n_n_0_1_1_wf := rfl

/-- The inverse root degrees gathered at the source of edge e. -/
theorem v21_apply (hei : ∀ i, 0 ≤ (x1 i).toInt ∧ (x1 i).toInt < 1024) (e : Fin 1048576) :
    val_main_v21 (F := Ideal) x1 (ix1 e) = val_main_v14 (F := Ideal) x1 (ix1 (src x1 e)) := by
  unfold val_main_v21
  rw [gatherRec_eq]
  refine (GraphOps.vecGather_apply (w := 32) (by norm_num) Facts₀.gather_S1024_S1048576x1_S1048576_n_0_n_n_0_1_1_wf
    (val_main_v14 (F := Ideal) x1) (val_main_v20 (F := Ideal) x1) e).trans ?_
  refine congrArg (fun k : Fin 1024 => val_main_v14 (F := Ideal) x1 (ix1 k)) (Fin.ext ?_)
  show min (val_main_v20 (F := Ideal) x1 (ix2 e (0 : Fin 1))).toInt.toNat (1024 - 1) = (node (srcW x1 e)).val
  rw [srcCol20 x1 hei e, node_val]

/-- The inverse root degrees gathered at the destination of edge e. -/
theorem v28_apply (hei : ∀ i, 0 ≤ (x1 i).toInt ∧ (x1 i).toInt < 1024) (e : Fin 1048576) :
    val_main_v28 (F := Ideal) x1 (ix1 e) = val_main_v14 (F := Ideal) x1 (ix1 (dst x1 e)) := by
  unfold val_main_v28
  rw [gatherRec_eq]
  refine (GraphOps.vecGather_apply (w := 32) (by norm_num) Facts₀.gather_S1024_S1048576x1_S1048576_n_0_n_n_0_1_1_wf
    (val_main_v14 (F := Ideal) x1) (val_main_v27 (F := Ideal) x1) e).trans ?_
  refine congrArg (fun k : Fin 1024 => val_main_v14 (F := Ideal) x1 (ix1 k)) (Fin.ext ?_)
  show min (val_main_v27 (F := Ideal) x1 (ix2 e (0 : Fin 1))).toInt.toNat (1024 - 1) = (node (dstW x1 e)).val
  rw [dstCol27 x1 hei e, node_val]

/-- The edge norms. -/
theorem norm_apply (hei : ∀ i, 0 ≤ (x1 i).toInt ∧ (x1 i).toInt < 1024) (e : Fin 1048576) :
    val_main_v29 (F := Ideal) x1 (ix1 e) = q x1 (src x1 e) * q x1 (dst x1 e) := by
  rw [val_main_v29_apply, Ideal.mulf_def, v21_apply x1 hei, v28_apply x1 hei, dinv_apply x1 hei, dinv_apply x1 hei]

end Cert.ReferenceIdeal.RefGraph

end
-- ==== Proof.RefValue.lean ====
/-
  The reference's result read at an index. Its @main appends the self loops to the two rows of the edge array; counts
  the in-degrees by a segment sum of ones; takes their inverse roots where positive; gathers them at the sources and
  at the destinations and multiplies (the edge norms); gathers the embedding rows the labels pick; and twice: a
  product with a weight matrix, a gather of its rows at the sources, a scaling by the norms, a segment sum over the
  destinations, a bias; a relu between the two. Index by index that is Spec.lean's reference form.
-/
import proofs.«409722_j76278619177162_3_alg».proof.Proof.RefRead
import proofs.«409722_j76278619177162_3_alg».proof.Proof.Spec
import proofs.«409722_j76278619177162_3_alg».proof.Proof.Nodes
import proofs.«409722_j76278619177162_3_alg».proof.Proof.RefGraph
import proofs.«409722_j76278619177162_3_alg».proof.Proof.Algebra
import proofs.«409722_j76278619177162_3_alg».proof.Proof.LibRowOps
import proofs.«409722_j76278619177162_3_alg».proof.Proof.LibGraphOps
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.Gcn

variable (x0 : (⟨S1024, .i32⟩ : BufTy).Contents (Elt Ideal)) (x1 : (⟨S2x1047552, .i32⟩ : BufTy).Contents (Elt Ideal))
  (x2 : (⟨S1024x64, .f32⟩ : BufTy).Contents (Elt Ideal)) (x3 : (⟨S64x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-- A row gather out of a table of 1024 rows reads the row at the node its start word names. -/
theorem rowGather_node {α : Type} {E C : Nat}
    (wf : GatherDims.WF ⟨2, ![1024, C]⟩ ⟨2, ![E, 1]⟩ ⟨2, ![E, C]⟩ [1] [0] [] [0] [] 1 ![1, C])
    (x : (⟨2, ![1024, C]⟩ : Shape).Idx → α) (idx : IVec ⟨2, ![E, 1]⟩ 32) (e : Fin E) (c : Fin C) :
    Host.gather (RowOps.rowGather 1024 E C wf) x idx (ix2 e c) = x (ix2 (node (idx (ix2 e (0 : Fin 1)))) c) :=
  RowOps.rowGather_apply (by decide) wf x idx e c

/-- The label column the embedding gather reads: the wrapped label, which is the label itself when it is non-negative. -/
theorem labCol (hy : ∀ i, 0 ≤ (x0 i).toInt) (k : Fin 1024) :
    val_main_v35 (F := Ideal) x0 (ix2 k (0 : Fin 1)) = x0 (ix1 k) := by
  have h : idx_main_v35 (ix2 k (0 : Fin 1)) = ix1 k := by
    funext a; match a with | ⟨0, _⟩ => rfl
  rw [val_main_v35_apply, h, val_main_v34_apply, val_main_v31_apply, val_main_v33_apply, val_main_v30_apply,
    val_main_v32_apply, val_main_c_6_apply, val_main_c_7_apply]
  exact GraphOps.wrap_of_nonneg _ (hy _)

/-- The gathered embedding rows: row k is the table's row at the node label k names. -/
theorem z_apply (hy : ∀ i, 0 ≤ (x0 i).toInt) (k : Fin 1024) (i : Fin 64) :
    val_main_v36 (F := Ideal) x0 x2 (ix2 k i) = x2 (ix2 (node (x0 (ix1 k))) i) := by
  unfold val_main_v36
  have h : gather_S1024x64_S1024x1_S1024x64_1_0_n_n_0_1_164
      = RowOps.rowGather 1024 1024 64 Facts₀.gather_S1024x64_S1024x1_S1024x64_1_0_n_n_0_1_164_wf := rfl
  rw [h, rowGather_node, labCol x0 hy k]

/-- The first layer's table. -/
theorem m1_apply (hy : ∀ i, 0 ≤ (x0 i).toInt) (k : Fin 1024) (j : Fin 128) :
    val_main_v37 (F := Ideal) x0 x2 x3 (ix2 k j) = M1 x0 x2 x3 k j := by
  rw [val_main_v37_apply]
  unfold M1
  refine Finset.sum_congr rfl fun i _ => ?_
  have hl : lidx_main_v37 (ix2 k j) i = ix2 k i := by
    funext a; match a with | ⟨0, _⟩ => rfl | ⟨1, _⟩ => rfl
  have hr : ridx_main_v37 (ix2 k j) i = ix2 i j := by
    funext a; match a with | ⟨0, _⟩ => rfl | ⟨1, _⟩ => rfl
  rw [hl, hr, z_apply x0 x2 hy k i]

/-- The first layer's table gathered at the sources. -/
theorem gath1_apply (hy : ∀ i, 0 ≤ (x0 i).toInt) (hei : ∀ i, 0 ≤ (x1 i).toInt ∧ (x1 i).toInt < 1024)
    (e : Fin 1048576) (j : Fin 128) :
    val_main_v44 (F := Ideal) x0 x1 x2 x3 (ix2 e j) = M1 x0 x2 x3 (src x1 e) j := by
  unfold val_main_v44
  have h : gather_S1024x128_S1048576x1_S1048576x128_1_0_n_n_0_1_1128
      = RowOps.rowGather 1024 1048576 128 Facts₀.gather_S1024x128_S1048576x1_S1048576x128_1_0_n_n_0_1_1128_wf := rfl
  rw [h, rowGather_node, RefGraph.srcCol43 x1 hei e]
  exact m1_apply x0 x2 x3 hy (src x1 e) j

/-- The edge norms along a row of 128. -/
theorem nrm1_apply (hei : ∀ i, 0 ≤ (x1 i).toInt ∧ (x1 i).toInt < 1024) (e : Fin 1048576) (j : Fin 128) :
    val_main_v46 (F := Ideal) x1 (ix2 e j) = q x1 (src x1 e) * q x1 (dst x1 e) := by
  have h : idx_main_v45 (idx_main_v46 (ix2 e j)) = ix1 e := by
    funext a; match a with | ⟨0, _⟩ => rfl
  rw [val_main_v46_apply, val_main_v45_apply, h, RefGraph.norm_apply x1 hei e]

/-- The first layer's messages. -/
theorem msg1_apply (hy : ∀ i, 0 ≤ (x0 i).toInt) (hei : ∀ i, 0 ≤ (x1 i).toInt ∧ (x1 i).toInt < 1024)
    (e : Fin 1048576) (j : Fin 128) :
    val_main_v47 (F := Ideal) x0 x1 x2 x3 (ix2 e j)
      = M1 x0 x2 x3 (src x1 e) j * (q x1 (src x1 e) * q x1 (dst x1 e)) := by
  rw [val_main_v47_apply, Ideal.mulf_def, gath1_apply x0 x1 x2 x3 hy hei e j, nrm1_apply x1 hei e j]

/-- A sum over the edges whose destination word, read signed, is k is the sum over the edges into node k. -/
theorem seg_filter (hei : ∀ i, 0 ≤ (x1 i).toInt ∧ (x1 i).toInt < 1024) (col : IVec S1048576x1 32)
    (hcol : ∀ e : Fin 1048576, col (ix2 e (0 : Fin 1)) = dstW x1 e) (k : Fin 1024) (f : Fin 1048576 → EReal) :
    ∑ e ∈ Finset.univ.filter (fun e : Fin 1048576 => (col (ix2 e (0 : Fin 1))).toInt = (k.val : ℤ)), f e
      = ∑ e ∈ Finset.univ.filter (fun e : Fin 1048576 => dst x1 e = k), f e := by
  refine Finset.sum_congr (Finset.filter_congr fun e _ => ?_) fun _ _ => rfl
  rw [hcol e]
  exact toInt_eq_iff_node _ (dstW_inrange x1 hei e).1 (dstW_inrange x1 hei e).2 k

/-- The first layer's segment sum read at (k, j), over any operand, index column and updates. -/
theorem scat128_apply (x : S1024x128.Idx → EReal) (idx : IVec S1048576x1 32) (upd : S1048576x128.Idx → EReal)
    (k : Fin 1024) (j : Fin 128) :
    Host.scatterAdd (F := Ideal) (φ := .f32) scatter_S1024x128_S1048576x1_S1048576x128_1_0_0_1 x idx upd (ix2 k j)
      = x (ix2 k j) + ∑ e ∈ Finset.univ.filter (fun e : Fin 1048576 => (idx (ix2 e (0 : Fin 1))).toInt = (k.val : ℤ)),
          upd (ix2 e j) := by
  have h : scatter_S1024x128_S1048576x1_S1048576x128_1_0_0_1
      = RowOps.rowScatter 1024 1048576 128 Facts₀.scatter_S1024x128_S1048576x1_S1048576x128_1_0_0_1_wf := rfl
  rw [h]
  simp only [Host.scatterAdd, Ideal.hostScatterAdd_def]
  exact RowOps.rowScatterAdd_apply _ x idx upd k j

/-- The second layer's segment sum read at (n, c), likewise. -/
theorem scat64_apply (x : S1024x64.Idx → EReal) (idx : IVec S1048576x1 32) (upd : S1048576x64.Idx → EReal)
    (n : Fin 1024) (c : Fin 64) :
    Host.scatterAdd (F := Ideal) (φ := .f32) scatter_S1024x64_S1048576x1_S1048576x64_1_0_0_1 x idx upd (ix2 n c)
      = x (ix2 n c) + ∑ e ∈ Finset.univ.filter (fun e : Fin 1048576 => (idx (ix2 e (0 : Fin 1))).toInt = (n.val : ℤ)),
          upd (ix2 e c) := by
  have h : scatter_S1024x64_S1048576x1_S1048576x64_1_0_0_1
      = RowOps.rowScatter 1024 1048576 64 Facts₀.scatter_S1024x64_S1048576x1_S1048576x64_1_0_0_1_wf := rfl
  rw [h]
  simp only [Host.scatterAdd, Ideal.hostScatterAdd_def]
  exact RowOps.rowScatterAdd_apply _ x idx upd n c

/-- The zero operand of the first layer's segment sum. -/
theorem zero48 (i : S1024x128.Idx) : val_main_v48 (F := Ideal) i = 0 := by
  rw [val_main_v48_apply, val_main_cst_10_apply, Ideal.ofBits_def, Ideal.ofBits_zero_f32]

/-- The first layer's segment sum. -/
theorem agg1_apply (hy : ∀ i, 0 ≤ (x0 i).toInt) (hei : ∀ i, 0 ≤ (x1 i).toInt ∧ (x1 i).toInt < 1024)
    (k : Fin 1024) (j : Fin 128) :
    val_main_v50 (F := Ideal) x0 x1 x2 x3 (ix2 k j)
      = 0 + aggR (src x1) (dst x1) (q x1) (M1 x0 x2 x3) k j := by
  unfold val_main_v50
  rw [scat128_apply, zero48, seg_filter x1 hei _ (RefGraph.dstCol49 x1) k]
  unfold aggR
  rw [Finset.sum_congr rfl fun e _ => msg1_apply x0 x1 x2 x3 hy hei e j]

/-- The first bias along the rows. -/
theorem bias1_apply (k : Fin 1024) (j : Fin 128) : val_main_v52 (F := Ideal) x4 (ix2 k j) = x4 (ix1 j) := by
  have h : idx_main_v51 (idx_main_v52 (ix2 k j)) = ix1 j := by
    funext a; match a with | ⟨0, _⟩ => rfl
  rw [val_main_v52_apply, val_main_v51_apply, h]

/-- The zero the relu compares with. -/
theorem zeroRelu (i : S1024x128.Idx) : val_main_call1_v0 (F := Ideal) i = 0 := by
  rw [val_main_call1_v0_apply, val_main_call1_cst_apply, Ideal.ofBits_def, Ideal.ofBits_zero_f32]

/-- The hidden activations. -/
theorem hid_apply (hy : ∀ i, 0 ≤ (x0 i).toInt) (hei : ∀ i, 0 ≤ (x1 i).toInt ∧ (x1 i).toInt < 1024)
    (k : Fin 1024) (j : Fin 128) :
    val_main_v54 (F := Ideal) x0 x1 x2 x3 x4 (ix2 k j) = hidR x0 x1 x2 x3 x4 k j := by
  unfold hidR
  rw [val_main_v54_apply, val_main_v53_apply, Ideal.maximumf_def, Ideal.addf_def,
    agg1_apply x0 x1 x2 x3 hy hei k j, bias1_apply x4 k j, zeroRelu]

/-- The second layer's table. -/
theorem m2_apply (hy : ∀ i, 0 ≤ (x0 i).toInt) (hei : ∀ i, 0 ≤ (x1 i).toInt ∧ (x1 i).toInt < 1024)
    (k : Fin 1024) (c : Fin 64) :
    val_main_v55 (F := Ideal) x0 x1 x2 x3 x4 x5 (ix2 k c) = M2R x0 x1 x2 x3 x4 x5 k c := by
  rw [val_main_v55_apply]
  unfold M2R
  refine Finset.sum_congr rfl fun j _ => ?_
  have hl : lidx_main_v55 (ix2 k c) j = ix2 k j := by
    funext a; match a with | ⟨0, _⟩ => rfl | ⟨1, _⟩ => rfl
  have hr : ridx_main_v55 (ix2 k c) j = ix2 j c := by
    funext a; match a with | ⟨0, _⟩ => rfl | ⟨1, _⟩ => rfl
  rw [hl, hr, hid_apply x0 x1 x2 x3 x4 hy hei k j]

/-- The second layer's table gathered at the sources. -/
theorem gath2_apply (hy : ∀ i, 0 ≤ (x0 i).toInt) (hei : ∀ i, 0 ≤ (x1 i).toInt ∧ (x1 i).toInt < 1024)
    (e : Fin 1048576) (c : Fin 64) :
    val_main_v62 (F := Ideal) x0 x1 x2 x3 x4 x5 (ix2 e c) = M2R x0 x1 x2 x3 x4 x5 (src x1 e) c := by
  unfold val_main_v62
  have h : gather_S1024x64_S1048576x1_S1048576x64_1_0_n_n_0_1_164
      = RowOps.rowGather 1024 1048576 64 Facts₀.gather_S1024x64_S1048576x1_S1048576x64_1_0_n_n_0_1_164_wf := rfl
  rw [h, rowGather_node, RefGraph.srcCol61 x1 hei e]
  exact m2_apply x0 x1 x2 x3 x4 x5 hy hei (src x1 e) c

/-- The edge norms along a row of 64. -/
theorem nrm2_apply (hei : ∀ i, 0 ≤ (x1 i).toInt ∧ (x1 i).toInt < 1024) (e : Fin 1048576) (c : Fin 64) :
    val_main_v64 (F := Ideal) x1 (ix2 e c) = q x1 (src x1 e) * q x1 (dst x1 e) := by
  have h : idx_main_v63 (idx_main_v64 (ix2 e c)) = ix1 e := by
    funext a; match a with | ⟨0, _⟩ => rfl
  rw [val_main_v64_apply, val_main_v63_apply, h, RefGraph.norm_apply x1 hei e]

/-- The second layer's messages. -/
theorem msg2_apply (hy : ∀ i, 0 ≤ (x0 i).toInt) (hei : ∀ i, 0 ≤ (x1 i).toInt ∧ (x1 i).toInt < 1024)
    (e : Fin 1048576) (c : Fin 64) :
    val_main_v65 (F := Ideal) x0 x1 x2 x3 x4 x5 (ix2 e c)
      = M2R x0 x1 x2 x3 x4 x5 (src x1 e) c * (q x1 (src x1 e) * q x1 (dst x1 e)) := by
  rw [val_main_v65_apply, Ideal.mulf_def, gath2_apply x0 x1 x2 x3 x4 x5 hy hei e c, nrm2_apply x1 hei e c]

/-- The zero operand of the second layer's segment sum. -/
theorem zero66 (i : S1024x64.Idx) : val_main_v66 (F := Ideal) i = 0 := by
  rw [val_main_v66_apply, val_main_cst_13_apply, Ideal.ofBits_def, Ideal.ofBits_zero_f32]

/-- The second layer's segment sum. -/
theorem agg2_apply (hy : ∀ i, 0 ≤ (x0 i).toInt) (hei : ∀ i, 0 ≤ (x1 i).toInt ∧ (x1 i).toInt < 1024)
    (n : Fin 1024) (c : Fin 64) :
    val_main_v68 (F := Ideal) x0 x1 x2 x3 x4 x5 (ix2 n c)
      = 0 + aggR (src x1) (dst x1) (q x1) (M2R x0 x1 x2 x3 x4 x5) n c := by
  unfold val_main_v68
  rw [scat64_apply, zero66, seg_filter x1 hei _ (RefGraph.dstCol67 x1) n]
  unfold aggR
  rw [Finset.sum_congr rfl fun e _ => msg2_apply x0 x1 x2 x3 x4 x5 hy hei e c]

/-- The second bias along the rows. -/
theorem bias2_apply (n : Fin 1024) (c : Fin 64) : val_main_v70 (F := Ideal) x6 (ix2 n c) = x6 (ix1 c) := by
  have h : idx_main_v69 (idx_main_v70 (ix2 n c)) = ix1 c := by
    funext a; match a with | ⟨0, _⟩ => rfl
  rw [val_main_v70_apply, val_main_v69_apply, h]

/-- THE REFERENCE'S RESULT AT (n, c) is Spec.lean's reference form of the network. -/
theorem result_apply (hy : ∀ i, 0 ≤ (x0 i).toInt) (hei : ∀ i, 0 ≤ (x1 i).toInt ∧ (x1 i).toInt < 1024)
    (n : Fin 1024) (c : Fin 64) :
    val_main_v71 (F := Ideal) x0 x1 x2 x3 x4 x5 x6 (ix2 n c) = outR x0 x1 x2 x3 x4 x5 x6 n c := by
  unfold outR
  rw [val_main_v71_apply, Ideal.addf_def, agg2_apply x0 x1 x2 x3 x4 x5 hy hei n c, bias2_apply x6 n c]

end Cert.ReferenceIdeal.RefValue

end
-- ==== Proof.lean ====
/-
  The proof of the claim: the kernel (a two-layer graph convolution whose aggregation is a dense product with the
  edge-count matrix B, scaled on both sides by the inverse root degrees) and its reference (gathers of rows at the edges'
  sources, scaled by the edge norms, summed into the edges' destinations) compute one function of their arguments over
  the extended reals, under the precondition: every float argument real-valued, every label non-negative, every word of
  the edge array a node in [0, 1024).

  Both programs terminate without a fault and leave their arguments as they were: the kernel's frame is generated
  (one pallas_call of one grid point, loads and a covering store through literal rectangles), the reference's is its run.
  The idealization rewrote nothing, so the kernel's idealized program is its own text read at the ideal values.
  The kernel's result array is what its body stores, a function of the window arrays, which the host operations before
  the call compute from the arguments (KernelValue.lean); index by index it is the kernel form of the network. The
  reference's result, read one operation at a time (RefGraph.lean, RefValue.lean), is the reference form. The two forms
  agree where the float arguments are reals (Bridge.lean, over Algebra.lean): collecting the edges into a node by their
  source turns the sum over edges into the product with the count matrix. The precondition gives the reals, the
  non-negative labels and the in-range edge words (PreFacts.lean).
-/
import proofs.«409722_j76278619177162_3_alg».proof.Defs
import proofs.«409722_j76278619177162_3_alg».proof.Proof.Gen.Kernel
import proofs.«409722_j76278619177162_3_alg».proof.Proof.Gen.Kernel.Skeleton
import proofs.«409722_j76278619177162_3_alg».proof.Proof.Gen.Kernel.Launch
import proofs.«409722_j76278619177162_3_alg».proof.Proof.Gen.Kernel.Points
import proofs.«409722_j76278619177162_3_alg».proof.Proof.Gen.Kernel.Frame
import proofs.«409722_j76278619177162_3_alg».proof.Proof.Gen.KernelIdeal
import proofs.«409722_j76278619177162_3_alg».proof.Proof.Gen.KernelIdeal.Skeleton
import proofs.«409722_j76278619177162_3_alg».proof.Proof.Gen.KernelIdeal.Launch
import proofs.«409722_j76278619177162_3_alg».proof.Proof.Gen.KernelIdeal.Points
import proofs.«409722_j76278619177162_3_alg».proof.Proof.Gen.KernelIdeal.Frame
import proofs.«409722_j76278619177162_3_alg».proof.Proof.Gen.ReferenceIdeal
import proofs.«409722_j76278619177162_3_alg».proof.Proof.Gen.Pre_finite_inputs
import proofs.«409722_j76278619177162_3_alg».proof.Proof.Gen.KernelIdeal.Value
import proofs.«409722_j76278619177162_3_alg».proof.Proof.RefRun
import proofs.«409722_j76278619177162_3_alg».proof.Proof.RefRead
import proofs.«409722_j76278619177162_3_alg».proof.Proof.PreFacts
import proofs.«409722_j76278619177162_3_alg».proof.Proof.Bridge
import proofs.«409722_j76278619177162_3_alg».proof.Proof.KernelValue
import proofs.«409722_j76278619177162_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Gcn

/-- The kernel runs and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference runs and leaves its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both idealized programs end with the reference
    form of the network of the arguments in their result arrays. -/
theorem algebraic : Cert.algebraic_KernelIdeal_ReferenceIdeal := by
  intro m ρ m' ρ' hpre hagree
  have hd := fun c : Dev Cert.KernelIdeal.nD => Cert.PreFacts.decode _ _ _ _ _ _ _ (hpre c)
  refine ⟨fun c => (fun i : Cert.KernelIdeal.S1024x64.Idx =>
      outR (Cert.KernelIdeal.KernelValue.argY m c) (Cert.KernelIdeal.KernelValue.argEi m c)
        (Cert.KernelIdeal.KernelValue.argEmb m c) (Cert.KernelIdeal.KernelValue.argW1 m c)
        (Cert.KernelIdeal.KernelValue.argB1 m c) (Cert.KernelIdeal.KernelValue.argW2 m c)
        (Cert.KernelIdeal.KernelValue.argB2 m c) (i 0) (i 1)), ?_, ?_⟩
  · refine (θ_run Cert.KernelIdeal.defs _ _).mono (fun r h c => ⟨(h c).1.trans (funext fun i => ?_), (h c).2⟩)
      (Cert.KernelIdeal.KernelValue.run m ρ (fun c => (hd c).2.2.2.2.2.2))
    obtain ⟨hemb, hW1, hb1, hW2, -, -, -⟩ := hd c
    exact outK_eq_outR _ _ _ _ _ _ _ hemb hW1 hb1 hW2 (i 0) (i 1)
  · refine (θ_run Cert.ReferenceIdeal.defs _ _).mono (fun r h c => ⟨(h c).1.trans ?_, (h c).2⟩)
      (Cert.ReferenceIdeal.Value.run (F := Ideal) m' ρ')
    obtain ⟨-, -, -, -, -, hy, hei⟩ := hd c
    obtain ⟨e0, e1, e2, e3, e4, e5, e6⟩ := hagree c
    rw [Cert.ReferenceIdeal.Read.val_main_v71_eq, e0, e1, e2, e3, e4, e5, e6]
    funext i
    obtain ⟨n, k, rfl⟩ : ∃ (n : Fin 1024) (k : Fin 64), i = ix2 n k := ⟨i 0, i 1, eq_ix2 i⟩
    exact Cert.ReferenceIdeal.RefValue.result_apply _ _ _ _ _ _ _ hy hei n k

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
